-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S2046x2046x3 : Shape := ⟨3, ![2046, 2046, 3]⟩
abbrev S_ : Shape := ⟨0, ![]⟩

class Facts : Prop where
  bcast_S_S2046x2046x3 : S_.BroadcastsInDim S2046x2046x3 (![] : Fin 0 → Fin S2046x2046x3.rank)
  reducesTo_S2046x2046x3_S_d0_1_2 : S2046x2046x3.ReducesTo [0, 1, 2] S_
  h_S_ : 0 < S_.numel

variable [Facts]

def fn {F : FTy → Type} [FloatOps F] (main_arg0 : IVec S2046x2046x3 32) : IVec S_ 1 :=
  let main_c : IVec S_ 32 := constantI S_ 32 0#32
  let main_v0 : IVec S2046x2046x3 32 := broadcastInDim S2046x2046x3 ![] bcast_S_S2046x2046x3 main_c
  let main_v1 : IVec S2046x2046x3 1 := cmpi .sge main_arg0 main_v0
  let main_c_0 : IVec S_ 32 := constantI S_ 32 255#32
  let main_v2 : IVec S2046x2046x3 32 := broadcastInDim S2046x2046x3 ![] bcast_S_S2046x2046x3 main_c_0
  let main_v3 : IVec S2046x2046x3 1 := cmpi .sle main_arg0 main_v2
  let main_v4 : IVec S2046x2046x3 1 := andi main_v1 main_v3
  let main_c_1 : IVec S_ 1 := constantI S_ 1 1#1
  let main_v5 : IVec S_ 1 := (fun x v => Host.reduce IntOp.andi x v reducesTo_S2046x2046x3_S_d0_1_2 h_S_) main_v4 main_c_1
  main_v5
-- ==== Kernel.lean ====
abbrev S2046x2046x3 : Shape := ⟨3, ![2046, 2046, 3]⟩
abbrev S2046x6138 : Shape := ⟨2, ![2046, 6138]⟩
abbrev S384x6138 : Shape := ⟨2, ![384, 6138]⟩

abbrev nBuf : Space → Nat
  | .hbm => 4
  | .vmem => 4
  | .smem => 0
  | _ => 0

abbrev bufTy : (tb : Table) → Fin (tcTables nBuf tb) → BufTy
  | .hbm, ⟨0, _⟩ => ⟨S2046x2046x3, .i32⟩
  | .hbm, ⟨1, _⟩ => ⟨S2046x6138, .i32⟩
  | .hbm, ⟨2, _⟩ => ⟨S2046x6138, .i32⟩
  | .hbm, ⟨3, _⟩ => ⟨S2046x2046x3, .i32⟩
  | .local _ .vmem, ⟨0, _⟩ => ⟨S384x6138, .i32⟩
  | .local _ .vmem, ⟨1, _⟩ => ⟨S384x6138, .i32⟩
  | .local _ .vmem, ⟨2, _⟩ => ⟨S384x6138, .i32⟩
  | .local _ .vmem, ⟨3, _⟩ => ⟨S384x6138, .i32⟩
  | _, _ => ⟨S2046x2046x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x6138 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x6138 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2046x2046x3_S2046x6138 : S2046x2046x3.ShapeCasts S2046x6138
  inb_S384x6138_S384x6138_0_0 : ∀ a, (![0, 0] : Fin 2 → Nat) a + S384x6138.size a ≤ S384x6138.size a
  h_S384x6138 : 0 < S384x6138.numel
  shapeCasts_S384x6138_S384x6138 : S384x6138.ShapeCasts S384x6138
  shapeCasts_S2046x6138_S2046x2046x3 : S2046x6138.ShapeCasts S2046x2046x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S384x6138.size a < S2046x6138.size a
  hwx0_0 : ∀ i : grid0.Coords, EltTy.bits .i32 = 32 ∨ (Rect.unit (s := S2046x6138) (fun a => cc0_transform_0 i a * S384x6138.size a) (fun a => (Pipeline.Clip.of (cc0_transform_0 i a) (S384x6138.size a) (S2046x6138.size a)).extent (S384x6138.size a)) fun a => Pipeline.Clip.inb (Pipeline.Clip.ok_of (hstart0_0 i a))).WholeWords (EltTy.packing .i32)
  hwxs0_0 : ∀ i : grid0.Coords, EltTy.bits .i32 = 32 ∨ (Rect.unit (s := S384x6138) (fun _ => 0) (fun a => (Pipeline.Clip.of (cc0_transform_0 i a) (S384x6138.size a) (S2046x6138.size a)).extent (S384x6138.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S384x6138.size a < S2046x6138.size a
  hwx0_1 : ∀ i : grid0.Coords, EltTy.bits .i32 = 32 ∨ (Rect.unit (s := S2046x6138) (fun a => cc0_transform_1 i a * S384x6138.size a) (fun a => (Pipeline.Clip.of (cc0_transform_1 i a) (S384x6138.size a) (S2046x6138.size a)).extent (S384x6138.size a)) fun a => Pipeline.Clip.inb (Pipeline.Clip.ok_of (hstart0_1 i a))).WholeWords (EltTy.packing .i32)
  hwxs0_1 : ∀ i : grid0.Coords, EltTy.bits .i32 = 32 ∨ (Rect.unit (s := S384x6138) (fun _ => 0) (fun a => (Pipeline.Clip.of (cc0_transform_1 i a) (S384x6138.size a) (S2046x6138.size a)).extent (S384x6138.size a)) fun a => (Nat.zero_add _).trans_le (Pipeline.Clip.extent_le (Pipeline.Clip.ok_of (hstart0_1 i a)))).WholeWords (EltTy.packing .i32)

variable [Facts₀]

abbrev win0_0 : Pipeline.Window sig grid0 :=
  Pipeline.Window.ofSpecClip (Memref.whole main_v0) S384x6138.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S384x6138.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2046x2046x3 : Shape := ⟨3, ![2046, 2046, 3]⟩
abbrev S0 : Shape := ⟨1, ![0]⟩
abbrev S3x2046x2046 : Shape := ⟨3, ![3, 2046, 2046]⟩
abbrev S3x341x6x341x6 : Shape := ⟨5, ![3, 341, 6, 341, 6]⟩
abbrev S3x341x341x6x6 : Shape := ⟨5, ![3, 341, 341, 6, 6]⟩
abbrev S348843x36 : Shape := ⟨2, ![348843, 36]⟩
abbrev S348843 : Shape := ⟨1, ![348843]⟩
abbrev S348843x1 : Shape := ⟨2, ![348843, 1]⟩
abbrev S_ : Shape := ⟨0, ![]⟩
abbrev S12558348 : Shape := ⟨1, ![12558348]⟩
abbrev S89303808 : Shape := ⟨1, ![89303808]⟩
abbrev S12558348x1 : Shape := ⟨2, ![12558348, 1]⟩
abbrev S348843x256 : Shape := ⟨2, ![348843, 256]⟩
abbrev S348843x1x1 : Shape := ⟨3, ![348843, 1, 1]⟩
abbrev S1 : Shape := ⟨1, ![1]⟩
abbrev S1x1x1 : Shape := ⟨3, ![1, 1, 1]⟩
abbrev S348843x257 : Shape := ⟨2, ![348843, 257]⟩
abbrev S348843x36x1 : Shape := ⟨3, ![348843, 36, 1]⟩

abbrev nBuf : Space → Nat
  | .hbm => 157
  | .vmem => 0
  | .smem => 0
  | _ => 0

abbrev hbmTy0_0 (i : Nat) : BufTy := match i % 128 with
  | 0 => ⟨S2046x2046x3, .i32⟩
  | 1 => ⟨S0, .i32⟩
  | 2 => ⟨S3x2046x2046, .i32⟩
  | 3 => ⟨S3x341x6x341x6, .i32⟩
  | 4 => ⟨S3x341x341x6x6, .i32⟩
  | 5 => ⟨S348843x36, .i32⟩
  | 6 => ⟨S348843, .i32⟩
  | 7 => ⟨S348843x1, .i32⟩
  | 8 => ⟨S_, .i32⟩
  | 9 => ⟨S348843x1, .i32⟩
  | 10 => ⟨S348843x1, .i32⟩
  | 11 => ⟨S348843x36, .i32⟩
  | 12 => ⟨S348843x36, .i32⟩
  | 13 => ⟨S12558348, .i32⟩
  | 14 => ⟨S_, .i32⟩
  | 15 => ⟨S12558348, .i32⟩
  | 16 => ⟨S_, .i32⟩
  | 17 => ⟨S89303808, .i32⟩
  | 18 => ⟨S12558348x1, .i32⟩
  | 19 => ⟨S89303808, .i32⟩
  | 20 => ⟨S348843x256, .i32⟩
  | 21 => ⟨S_, .i32⟩
  | 22 => ⟨S_, .i32⟩
  | 23 => ⟨S348843x256, .i32⟩
  | 24 => ⟨S_, .i32⟩
  | 25 => ⟨S348843, .i32⟩
  | 26 => ⟨S348843x1, .i32⟩
  | 27 => ⟨S_, .i32⟩
  | 28 => ⟨S348843x1, .i32⟩
  | 29 => ⟨S348843x1, .i1⟩
  | 30 => ⟨S_, .i32⟩
  | 31 => ⟨S348843x1, .i32⟩
  | 32 => ⟨S348843x1, .i32⟩
  | 33 => ⟨S348843x1, .i32⟩
  | 34 => ⟨S348843x1x1, .i32⟩
  | 35 => ⟨S1, .i32⟩
  | 36 => ⟨S_, .i32⟩
  | 37 => ⟨S348843x1x1, .i32⟩
  | 38 => ⟨S348843x1x1, .i1⟩
  | 39 => ⟨S1x1x1, .i32⟩
  | 40 => ⟨S348843x1x1, .i32⟩
  | 41 => ⟨S348843x1x1, .i1⟩
  | 42 => ⟨S348843x1x1, .i1⟩
  | 43 => ⟨S_, .i1⟩
  | 44 => ⟨S348843x1, .i1⟩
  | 45 => ⟨S348843x1, .i32⟩
  | 46 => ⟨S_, .i32⟩
  | 47 => ⟨S348843x1, .i32⟩
  | 48 => ⟨S348843x1, .i32⟩
  | 49 => ⟨S348843, .i32⟩
  | 50 => ⟨S_, .i32⟩
  | 51 => ⟨S348843, .i32⟩
  | 52 => ⟨S348843, .i32⟩
  | 53 => ⟨S_, .i32⟩
  | 54 => ⟨S_, .i32⟩
  | 55 => ⟨S348843, .i32⟩
  | 56 => ⟨S348843, .i32⟩
  | 57 => ⟨S348843, .i32⟩
  | 58 => ⟨S_, .i32⟩
  | 59 => ⟨S348843, .i32⟩
  | 60 => ⟨S348843, .i1⟩
  | 61 => ⟨S348843, .i32⟩
  | 62 => ⟨S348843, .i32⟩
  | 63 => ⟨S_, .i32⟩
  | 64 => ⟨S348843, .i32⟩
  | 65 => ⟨S348843, .i1⟩
  | 66 => ⟨S348843, .i1⟩
  | 67 => ⟨S_, .i32⟩
  | 68 => ⟨S348843, .i32⟩
  | 69 => ⟨S348843, .i32⟩
  | 70 => ⟨S348843, .i32⟩
  | 71 => ⟨S_, .i32⟩
  | 72 => ⟨S348843, .i32⟩
  | 73 => ⟨S348843, .i32⟩
  | 74 => ⟨S348843x1, .i32⟩
  | 75 => ⟨S_, .i32⟩
  | 76 => ⟨S_, .i32⟩
  | 77 => ⟨S348843x1, .i32⟩
  | 78 => ⟨S348843x1, .i32⟩
  | 79 => ⟨S348843x1, .i32⟩
  | 80 => ⟨S_, .i32⟩
  | 81 => ⟨S348843x1, .i32⟩
  | 82 => ⟨S348843x1, .i1⟩
  | 83 => ⟨S348843x1, .i32⟩
  | 84 => ⟨S348843x1, .i32⟩
  | 85 => ⟨S_, .i32⟩
  | 86 => ⟨S348843x1, .i32⟩
  | 87 => ⟨S348843x1, .i1⟩
  | 88 => ⟨S348843x1, .i1⟩
  | 89 => ⟨S_, .i32⟩
  | 90 => ⟨S348843x1, .i32⟩
  | 91 => ⟨S348843x1, .i32⟩
  | 92 => ⟨S348843x1, .i32⟩
  | 93 => ⟨S348843x256, .i32⟩
  | 94 => ⟨S348843x256, .i32⟩
  | 95 => ⟨S348843x1, .i32⟩
  | 96 => ⟨S348843x256, .i32⟩
  | 97 => ⟨S348843x256, .i32⟩
  | 98 => ⟨S348843x256, .i32⟩
  | 99 => ⟨S348843x1, .i32⟩
  | 100 => ⟨S348843x256, .i32⟩
  | 101 => ⟨S348843x256, .i1⟩
  | 102 => ⟨S348843x256, .i32⟩
  | 103 => ⟨S348843x256, .i32⟩
  | 104 => ⟨S_, .i32⟩
  | 105 => ⟨S348843x256, .i32⟩
  | 106 => ⟨S348843x256, .i1⟩
  | 107 => ⟨S348843x256, .i1⟩
  | 108 => ⟨S_, .i32⟩
  | 109 => ⟨S348843x256, .i32⟩
  | 110 => ⟨S348843x256, .i32⟩
  | 111 => ⟨S348843x256, .i32⟩
  | 112 => ⟨S_, .i32⟩
  | 113 => ⟨S_, .i32⟩
  | 114 => ⟨S348843x257, .i32⟩
  | 115 => ⟨S348843x256, .i32⟩
  | 116 => ⟨S_, .i32⟩
  | 117 => ⟨S_, .i32⟩
  | 118 => ⟨S_, .i32⟩
  | 119 => ⟨S348843x256, .i32⟩
  | 120 => ⟨S348843x256, .i32⟩
  | 121 => ⟨S_, .i32⟩
  | 122 => ⟨S348843x256, .i32⟩
  | 123 => ⟨S348843x256, .i32⟩
  | 124 => ⟨S_, .i32⟩
  | 125 => ⟨S348843x36, .i32⟩
  | 126 => ⟨S348843x36, .i1⟩
  | 127 => ⟨S_, .i32⟩
  | _ => ⟨S2046x2046x3, .i32⟩

abbrev hbmTy0_1 (i : Nat) : BufTy := match i % 128 with
  | 0 => ⟨S348843x36, .i32⟩
  | 1 => ⟨S348843x36, .i32⟩
  | 2 => ⟨S348843x36, .i32⟩
  | 3 => ⟨S348843x36x1, .i32⟩
  | 4 => ⟨S1, .i32⟩
  | 5 => ⟨S_, .i32⟩
  | 6 => ⟨S348843x36x1, .i32⟩
  | 7 => ⟨S348843x36x1, .i1⟩
  | 8 => ⟨S1x1x1, .i32⟩
  | 9 => ⟨S348843x36x1, .i32⟩
  | 10 => ⟨S348843x36x1, .i1⟩
  | 11 => ⟨S348843x36x1, .i1⟩
  | 12 => ⟨S_, .i1⟩
  | 13 => ⟨S348843x36, .i1⟩
  | 14 => ⟨S348843x36, .i32⟩
  | 15 => ⟨S_, .i32⟩
  | 16 => ⟨S348843x36, .i32⟩
  | 17 => ⟨S348843x36, .i32⟩
  | 18 => ⟨S_, .i32⟩
  | 19 => ⟨S348843, .i32⟩
  | 20 => ⟨S348843, .i1⟩
  | 21 => ⟨S348843x1, .i1⟩
  | 22 => ⟨S348843x36, .i1⟩
  | 23 => ⟨S348843x36, .i32⟩
  | 24 => ⟨S3x341x341x6x6, .i32⟩
  | 25 => ⟨S3x341x6x341x6, .i32⟩
  | 26 => ⟨S3x2046x2046, .i32⟩
  | 27 => ⟨S3x2046x2046, .i32⟩
  | 28 => ⟨S2046x2046x3, .i32⟩
  | _ => ⟨S2046x2046x3, .i32⟩

abbrev hbmTy (i : Nat) : BufTy := match i / 128 with
  | 0 => hbmTy0_0 i
  | 1 => hbmTy0_1 i
  | _ => ⟨S2046x2046x3, .i32⟩

abbrev bufTy : (tb : Table) → Fin (tcTables nBuf tb) → BufTy
  | .hbm, ⟨i, _⟩ => hbmTy i
  | _, _ => ⟨S2046x2046x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_c_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_call0_c : Ref sig .tc := ⟨.hbm, 21, rfl⟩
abbrev main_call0_call0_v0 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_c_4 : Ref sig .tc := ⟨.hbm, 46, rfl⟩
abbrev main_call1_v14 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_c_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_c : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_0 : Ref sig .tc := ⟨.hbm, 67, rfl⟩
abbrev main_call2_v12 : Ref sig .tc := ⟨.hbm, 68, rfl⟩
abbrev main_call2_v13 : Ref sig .tc := ⟨.hbm, 69, rfl⟩
abbrev main_v23 : Ref sig .tc := ⟨.hbm, 70, rfl⟩
abbrev main_c_6 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_c_7 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_v6 : Ref sig .tc := ⟨.hbm, 102, rfl⟩
abbrev main_call4_v7 : Ref sig .tc := ⟨.hbm, 103, rfl⟩
abbrev main_call4_c : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_c_0 : Ref sig .tc := ⟨.hbm, 108, rfl⟩
abbrev main_call4_v11 : Ref sig .tc := ⟨.hbm, 109, rfl⟩
abbrev main_call4_v12 : Ref sig .tc := ⟨.hbm, 110, rfl⟩
abbrev main_v31 : Ref sig .tc := ⟨.hbm, 111, rfl⟩
abbrev main_c_8 : Ref sig .tc := ⟨.hbm, 112, rfl⟩
abbrev main_call5_v0 : Ref sig .tc := ⟨.hbm, 113, rfl⟩
abbrev main_v32 : Ref sig .tc := ⟨.hbm, 114, rfl⟩
abbrev main_v33 : Ref sig .tc := ⟨.hbm, 115, rfl⟩
abbrev main_c_9 : Ref sig .tc := ⟨.hbm, 116, rfl⟩
abbrev main_c_10 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v34 : Ref sig .tc := ⟨.hbm, 123, rfl⟩
abbrev main_call7_c : Ref sig .tc := ⟨.hbm, 124, rfl⟩
abbrev main_call7_v0 : Ref sig .tc := ⟨.hbm, 125, rfl⟩
abbrev main_call7_v1 : Ref sig .tc := ⟨.hbm, 126, rfl⟩
abbrev main_call7_c_0 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_call7_v5 : Ref sig .tc := ⟨.hbm, 131, rfl⟩
abbrev main_call7_c_1 : Ref sig .tc := ⟨.hbm, 132, rfl⟩
abbrev main_call7_c_2 : Ref sig .tc := ⟨.hbm, 133, rfl⟩
abbrev main_call7_v6 : Ref sig .tc := ⟨.hbm, 134, rfl⟩
abbrev main_call7_v7 : Ref sig .tc := ⟨.hbm, 135, rfl⟩
abbrev main_call7_v8 : Ref sig .tc := ⟨.hbm, 136, rfl⟩
abbrev main_call7_v9 : Ref sig .tc := ⟨.hbm, 137, rfl⟩
abbrev main_call7_v10 : Ref sig .tc := ⟨.hbm, 138, rfl⟩
abbrev main_call7_v11 : Ref sig .tc := ⟨.hbm, 139, rfl⟩
abbrev main_call7_c_3 : Ref sig .tc := ⟨.hbm, 140, rfl⟩
abbrev main_call7_v12 : Ref sig .tc := ⟨.hbm, 141, rfl⟩
abbrev main_call7_v13 : Ref sig .tc := ⟨.hbm, 142, rfl⟩
abbrev main_call7_c_4 : Ref sig .tc := ⟨.hbm, 143, rfl⟩
abbrev main_call7_v14 : Ref sig .tc := ⟨.hbm, 144, rfl⟩
abbrev main_v35 : Ref sig .tc := ⟨.hbm, 145, rfl⟩
abbrev main_c_11 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_call8_v0 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩

abbrev nD : Nat := 1
abbrev τ : Topo := Topo.v7x

variable {F : FTy → Type} [FloatOps F]

class Facts₀ : Prop where
  hz_S0 : S0.numel = 0
  transposes_S2046x2046x3_S3x2046x2046_2_0_1 : S2046x2046x3.Transposes [2, 0, 1] S3x2046x2046
  shapeCasts_S3x2046x2046_S3x341x6x341x6 : S3x2046x2046.ShapeCasts S3x341x6x341x6
  transposes_S3x341x6x341x6_S3x341x341x6x6_0_1_3_2_4 : S3x341x6x341x6.Transposes [0, 1, 3, 2, 4] S3x341x341x6x6
  shapeCasts_S3x341x341x6x6_S348843x36 : S3x341x341x6x6.ShapeCasts S348843x36
  bcast_S348843_S348843x1_0 : S348843.BroadcastsInDim S348843x1 (![0] : Fin 1 → Fin S348843x1.rank)
  bcast_S_S348843x1 : S_.BroadcastsInDim S348843x1 (![] : Fin 0 → Fin S348843x1.rank)
  bcast_S348843x1_S348843x36_0_1 : S348843x1.BroadcastsInDim S348843x36 (![0, 1] : Fin 2 → Fin S348843x36.rank)
  shapeCasts_S348843x36_S12558348 : S348843x36.ShapeCasts S12558348
  bcast_S_S12558348 : S_.BroadcastsInDim S12558348 (![] : Fin 0 → Fin S12558348.rank)
  bcast_S_S89303808 : S_.BroadcastsInDim S89303808 (![] : Fin 0 → Fin S89303808.rank)
  bcast_S12558348_S12558348x1_0 : S12558348.BroadcastsInDim S12558348x1 (![0] : Fin 1 → Fin S12558348x1.rank)
  shapeCasts_S89303808_S348843x256 : S89303808.ShapeCasts S348843x256
  bcast_S_S_ : S_.BroadcastsInDim S_ (![] : Fin 0 → Fin S_.rank)
  reduceWindows_S348843x256_S348843x256_w1s1p0_0_w256s1p255_0 : S348843x256.ReduceWindows (![1, 256] : Fin 2 → Nat) ![1, 1] ![0, 255] ![0, 0] S348843x256
  h_S_ : 0 < S_.numel
  reducesTo_S348843x36_S348843_d1 : S348843x36.ReducesTo [1] S348843
  shapeCasts_S348843x1_S348843x1x1 : S348843x1.ShapeCasts S348843x1x1
  bcast_S_S348843x1x1 : S_.BroadcastsInDim S348843x1x1 (![] : Fin 0 → Fin S348843x1x1.rank)
  bcast_S1_S1x1x1_2 : S1.BroadcastsInDim S1x1x1 (![2] : Fin 1 → Fin S1x1x1.rank)
  bcast_S1x1x1_S348843x1x1_0_1_2 : S1x1x1.BroadcastsInDim S348843x1x1 (![0, 1, 2] : Fin 3 → Fin S348843x1x1.rank)
  reducesTo_S348843x1x1_S348843x1_d2 : S348843x1x1.ReducesTo [2] S348843x1
  shapeCasts_S348843x1_S348843 : S348843x1.ShapeCasts S348843
  bcast_S_S348843 : S_.BroadcastsInDim S348843 (![] : Fin 0 → Fin S348843.rank)
  bcast_S348843x1_S348843x256_0_1 : S348843x1.BroadcastsInDim S348843x256 (![0, 1] : Fin 2 → Fin S348843x256.rank)
  bcast_S_S348843x256 : S_.BroadcastsInDim S348843x256 (![] : Fin 0 → Fin S348843x256.rank)
  pads_S348843x256_S348843x257_000_100 : S348843x256.Pads (![0, 1] : Fin 2 → Nat) ![0, 0] ![0, 0] S348843x257
  slices_S348843x257_S348843x256_0_0 : S348843x257.Slices ![0, 0] S348843x256
  bcast_S_S348843x36 : S_.BroadcastsInDim S348843x36 (![] : Fin 0 → Fin S348843x36.rank)
  shapeCasts_S348843x36_S348843x36x1 : S348843x36.ShapeCasts S348843x36x1
  bcast_S_S348843x36x1 : S_.BroadcastsInDim S348843x36x1 (![] : Fin 0 → Fin S348843x36x1.rank)
  bcast_S1x1x1_S348843x36x1_0_1_2 : S1x1x1.BroadcastsInDim S348843x36x1 (![0, 1, 2] : Fin 3 → Fin S348843x36x1.rank)
  reducesTo_S348843x36x1_S348843x36_d2 : S348843x36x1.ReducesTo [2] S348843x36
  shapeCasts_S348843x36_S3x341x341x6x6 : S348843x36.ShapeCasts S3x341x341x6x6
  transposes_S3x341x341x6x6_S3x341x6x341x6_0_1_3_2_4 : S3x341x341x6x6.Transposes [0, 1, 3, 2, 4] S3x341x6x341x6
  shapeCasts_S3x341x6x341x6_S3x2046x2046 : S3x341x6x341x6.ShapeCasts S3x2046x2046
  transposes_S3x2046x2046_S2046x2046x3_1_2_0 : S3x2046x2046.Transposes [1, 2, 0] S2046x2046x3
  scatter_S89303808_S12558348x1_S12558348_n_0_0_1_wf : ScatterDims.WF S89303808 S12558348x1 S12558348 [] [0] [0] 1
  gather_S348843x256_S348843x1x1_S348843x1_n_1_0_0_1_2_11_wf : GatherDims.WF S348843x256 S348843x1x1 S348843x1 [] [1] [0] [1] [0] 2 ![1, 1]
  gather_S348843x256_S348843x36x1_S348843x36_n_1_0_0_1_2_11_wf : GatherDims.WF S348843x256 S348843x36x1 S348843x36 [] [1] [0] [1] [0] 2 ![1, 1]
  scatter_S3x2046x2046_S0_S3x2046x2046_012_n_n_0_wf : ScatterDims.WF S3x2046x2046 S0 S3x2046x2046 [0, 1, 2] [] [] 0

variable [Facts₀]

def scatter_S89303808_S12558348x1_S12558348_n_0_0_1 : ScatterDims S89303808 S12558348x1 S12558348 where
  updateWindowDims := []
  insertedWindowDims := [0]
  scatterDimsToOperandDims := [0]
  indexVectorDim := 1
  wf := scatter_S89303808_S12558348x1_S12558348_n_0_0_1_wf
def gather_S348843x256_S348843x1x1_S348843x1_n_1_0_0_1_2_11 : GatherDims S348843x256 S348843x1x1 S348843x1 where
  offsetDims := []
  collapsedSliceDims := [1]
  operandBatchingDims := [0]
  startIndicesBatchingDims := [0]
  startIndexMap := [1]
  indexVectorDim := 2
  sliceSizes := ![1, 1]
  wf := gather_S348843x256_S348843x1x1_S348843x1_n_1_0_0_1_2_11_wf
def gather_S348843x256_S348843x36x1_S348843x36_n_1_0_0_1_2_11 : GatherDims S348843x256 S348843x36x1 S348843x36 where
  offsetDims := []
  collapsedSliceDims := [1]
  operandBatchingDims := [0]
  startIndicesBatchingDims := [0]
  startIndexMap := [1]
  indexVectorDim := 2
  sliceSizes := ![1, 1]
  wf := gather_S348843x256_S348843x36x1_S348843x36_n_1_0_0_1_2_11_wf
def scatter_S3x2046x2046_S0_S3x2046x2046_012_n_n_0 : ScatterDims S3x2046x2046 S0 S3x2046x2046 where
  updateWindowDims := [0, 1, 2]
  insertedWindowDims := []
  scatterDimsToOperandDims := []
  indexVectorDim := 0
  wf := scatter_S3x2046x2046_S0_S3x2046x2046_012_n_n_0_wf

class Facts : Prop extends Facts₀ where

variable [Facts]
-- ==== Proof.KernelRun.lean ====
/-
  The run of the copy kernel. @main reshapes the picture i32[2046, 2046, 3] to [2046, 6138], one pallas_call copies it
  through (384, 6138) blocks on a grid of six points, and a second reshape gives the picture's shape back. 2046 is not a
  multiple of 384: the sixth block holds rows 1920‥2045 and overhangs the array by 258 rows, in the input window and in
  the result's, so its transfers are cut at the array's end and the staging rows past it hold words nothing names.

  What is proved here, for any float values: the proof data of the pipeline (after the body both staging buffers hold the
  input's block on the rows inside the array), the body's triple (a whole load, a dead load, a whole store of the loaded
  block cast to its own shape), the body obligation in the loose form that states the buffers on the moved rows only,
  and `run_main`: from any memory with zero counters every weakly fair execution of @main terminates, the windows'
  arrays end at what the write-backs of the six points make of them, and every other unscoped buffer ends as the reshape
  after the region leaves it.
-/
import proofs.«407464_j39436389711988_3_alg».proof.Proof.Gen.Kernel.Frame
import proofs.«407464_j39436389711988_3_alg».proof.Proof.Gen.Kernel.Skeleton
import Idealize.ShloMosaic.Lib.Pipeline.Kit
import Idealize.ShloMosaic.Lib.Pipeline.Value
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input's block at point `t` as the fetch reads it: the rows of the reshaped picture the block holds that lie
    inside the array (384 of them at points 0‥4, 126 at point 5). -/
def xblk (c : Dev nD) (t : Fin cfg0.N) : (win0_0.xblock (grid0.coords t)).Idx → Elt F .i32 := iblk m c 0 t

/-- That block filled out to the staging buffer's 384 rows with the zero word, which nothing reads. -/
def xfull (c : Dev nD) (t : Fin cfg0.N) : S384x6138.Idx → Elt F .i32 :=
  win0_0.fill (grid0.coords t) (fun _ => (0#32 : BitVec 32)) (xblk m c t)

/-- The proof data: both staging buffers hold the input's block after the body. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => xfull m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfull m c t := by dsimp only [dats]
theorem after_1 (c : Dev nD) (t : Fin cfg0.N) : (dats m 0 c).after 1 t = xfull m c t := by dsimp only [dats]

theorem nofetch_1 : ∀ t : Fin cfg0.N, (cfg0.win 1).fetch t = false :=
  (by decide +kernel : ∀ t : Fin grid0.N, win0_1.fetch t = false)

theorem before_0 (c : Dev nD) (t : Fin cfg0.N) (d) :
    (dats m 0 c).before (0 : Fin 2) t d = win0_0.fill (grid0.coords t) d (xblk m c t) := by
  unfold Dat.before; rw [if_pos (fetch0_0 t)]; rfl

theorem before_1 (c : Dev nD) (t : Fin cfg0.N) (d) : (dats m 0 c).before (1 : Fin 2) t d = d := by
  by_cases ht : t.val = 0
  · unfold Dat.before; rw [if_neg (by rw [nofetch_1 t]; exact Bool.false_ne_true), if_pos ht]
  · rw [Dat.before_of_pos _ 1 t ht (nofetch_1 t) d, if_pos (flush0_1 _)]

/-- The kernel's variants: none. -/
abbrev 𝒱₀ : Variants := Variants.none

theorem zero2 : (![0, 0] : Fin 2 → Nat) = fun _ => 0 := funext fun a => by fin_cases a <;> rfl

/-- A load through the whole of either staging buffer of the input's window reads the buffer's contents. -/
theorem load_in_0 (f : S384x6138.Idx → Elt F .i32) :
    (Memref.whole cc0_stg0_0 : Memref sig .tc _ _ _).view.readAt (Elt F) (Rect.unit (s := S384x6138) ![0, 0] S384x6138.size
      inb_S384x6138_S384x6138_0_0).toLoadRect f = f := Memref.readAt_unit_zero (Elt F) cc0_stg0_0 zero2 _ f
theorem load_in_1 (f : S384x6138.Idx → Elt F .i32) :
    (Memref.whole cc0_stg0_1 : Memref sig .tc _ _ _).view.readAt (Elt F) (Rect.unit (s := S384x6138) ![0, 0] S384x6138.size
      inb_S384x6138_S384x6138_0_0).toLoadRect f = f := Memref.readAt_unit_zero (Elt F) cc0_stg0_1 zero2 _ f
/-- An unmasked store through the whole of either staging buffer of the result's window leaves the payload there. -/
theorem store_out_0 (f w : S384x6138.Idx → Elt F .i32) :
    (((Memref.whole cc0_stg1_0).access (Rect.unit (s := S384x6138) ![0, 0] S384x6138.size inb_S384x6138_S384x6138_0_0)) :
      View sig .tc _ _ _).write (Elt F) f w Finset.univ = w := Memref.write_access_unit_zero_univ (Elt F) cc0_stg1_0 zero2 _ f w
theorem store_out_1 (f w : S384x6138.Idx → Elt F .i32) :
    (((Memref.whole cc0_stg1_1).access (Rect.unit (s := S384x6138) ![0, 0] S384x6138.size inb_S384x6138_S384x6138_0_0)) :
      View sig .tc _ _ _).write (Elt F) f w Finset.univ = w := Memref.write_access_unit_zero_univ (Elt F) cc0_stg1_1 zero2 _ f w

/-- The body on staging buffer `s0` of the input's window and `s1` of the result's: the whole load of the input's
    buffer, the dead load of the result's, the whole store of the loaded block (cast to its own shape, the identity) —
    the result's buffer ends holding what the input's holds, that one unchanged. -/
theorem sound_body (c : Dev nD) (E : Set ℕ) (i : grid0.Coords) (s0 : Fin 2) (s1 : Fin 2)
    (X0 X1 : S384x6138.Idx → Elt F .i32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare X0) -∗ K ⟨⟩))
      ⊢ wp frame (wpE (defs₀ (F := F)) 𝒱₀ c none) E
          (cc0__copy_kernel i (stage0_0 s0) (hstage0_0 s0) (stage0_1 s1) (hstage0_1 s1)) K := by
  have hpay : ∀ v : Vec F S384x6138 .i32, k0_pay1 v = v := fun v => shapeCast_self v _
  fin_cases s0 <;> fin_cases s1
  all_goals
    simp only [owns_whole_eq, cc0__copy_kernel_eq_skeleton]; unfold cc0__copy_kernel_skel
    simp only [Prog.lift, Prog.bind_op, Prog.bind_ret]
    iintro ⟨⟨⟨%f0, %hf0, H0⟩, ⟨%f1, %hf1, H1⟩⟩, Hk⟩
    sl_steps
    iapply Hk
    first | rw [load_in_0] | rw [load_in_1]
    first | rw [store_out_0] | rw [store_out_1]
    rw [hpay]
    isplitl [H0]
    · iexists f0; isplitr; · ipureintro; exact hf0
      iexact H0
    · iexists f0; isplitr; · ipureintro; exact hf0
      iexact H1

/-- The library's body obligation, from `sound_body` at the point's staging buffers: the input's buffer arrives
    holding its block filled out with `d` past the array's end (`before_0`), the result's holding anything
    (`before_1`); both leave holding the former, which on the rows inside the array is `xfull`'s — all either loose
    window's obligation asks. The invariant (scratch and generator register: the body touches neither) and the
    core's dues pass through. -/
theorem body_obligation (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0, before_1 m c t d1, after_0 m c t, after_1 m c t]
  iapply (sound_body (F := F) c Set.univ (grid0.coords t) (cfg0.slots t 0) (cfg0.slots t 1)
    (win0_0.fill (grid0.coords t) d0 (xblk m c t)) d1 _)
  isplitl [H0 H1]
  · isplitl [H0]
    · iexact H0
    · iexact H1
  iintro ⟨H0, H1⟩
  isplitl [HΦ]; · iexact HΦ
  isplitl [Ho]; · iexact Ho
  have hx : win0_0.cut (grid0.coords t) (xfull m c t) = xblk m c t := win0_0.cut_fill _ _ _
  isplitl [H0]
  · iexists d0
    change _ ⊢ owns (c : Thread nD τ) (stage0_0 (cfg0.slots t 0)) fullShare (win0_0.fill (grid0.coords t) d0 (win0_0.cut (grid0.coords t) (xfull m c t)))
    rw [hx]
  · iexists d0
    change _ ⊢ owns (c : Thread nD τ) (stage0_1 (cfg0.slots t 1)) fullShare (win0_0.fill (grid0.coords t) d0 (win0_0.cut (grid0.coords t) (xfull m c t)))
    rw [hx]

set_option backward.isDefEq.respectTransparency.types false in
/-- At the compiled mesh, for any values, from any memory with zero counters: every weakly fair execution of @main
    terminates, every array of the pipeline ends at what the library computes from the proof data, and every other
    unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

end Cert.Kernel.Hand

end
-- ==== Proof.KernelValue.lean ====
/-
  The copy kernel's result is the picture.

  @main reshapes the picture i32[2046, 2046, 3] to rows of 6138 words, one pallas_call copies the rows through
  (384, 6138) blocks on a grid of six points, and a second reshape gives the picture's shape back. The run leaves the
  result window's array as the six write-backs make it, each the rows inside the array of what the body left in the
  staging buffer; those rows are the input window's block at the same point, and the two windows have one index map,
  one block shape and arrays of one shape, so every point writes back its block of ONE array, the reshaped picture.
  Point `t`'s block holds rows `384 t` up to `384 t + min 384 (2046 − 384 t)`, so row `r` lies in the block of point
  `r / 384` and the six blocks cover the array: it ends holding the reshaped picture. The reshape after the region
  reads that array, and a reshape followed by the reshape back is the identity: the result buffer holds the picture.
  The picture's own buffer is written by no operation and ends as launched.
-/
import proofs.«407464_j39436389711988_3_alg».proof.Proof.KernelRun

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The result array after the six points -/

/-- The reshaped picture as the region finds it: the input window's array. -/
abbrev xarr (c : Dev nD) : Vec F S2046x6138 .i32 := V m c main_v0

/-- Where the result's blocks sit, decided once over the six points: point `t`'s block starts at row `384 t`, holds
    `min 384 (2046 − 384 t)` rows of the array, and spans the lanes. -/
theorem idx_facts : ∀ t : Fin cfg0.N, win0_1.index t 0 = t.val ∧ win0_1.xsize (grid0.coords t) 0 = min 384 (2046 - 384 * t.val)
    ∧ win0_1.index t 1 * win0_1.size 1 = 0 ∧ win0_1.xsize (grid0.coords t) 1 = 6138 :=
  (by decide +kernel : ∀ t : Fin grid0.N, win0_1.index t 0 = t.val ∧ win0_1.xsize (grid0.coords t) 0 = min 384 (2046 - 384 * t.val)
    ∧ win0_1.index t 1 * win0_1.size 1 = 0 ∧ win0_1.xsize (grid0.coords t) 1 = 6138)

/-- An index of the array is in point `t`'s block iff its row is among the block's rows inside the array. -/
theorem mem_blk (t : Fin cfg0.N) (i : S2046x6138.Idx) :
    i ∈ ((cfg0.win 1).blk t).view.set ↔ 384 * t.val ≤ (i 0 : Nat) ∧ (i 0 : Nat) < 384 * t.val + min 384 (2046 - 384 * t.val) := by
  show i ∈ ((View.whole main_v1).slice (win0_1.rect t)).set ↔ _
  rw [View.set_slice_whole, Rect.mem_set_unit]
  obtain ⟨e0, e1, e2, e3⟩ := idx_facts t
  have h1 : (i 1 : Nat) < 6138 := (i 1).isLt
  constructor
  · intro h
    have h0 : win0_1.index t 0 * 384 ≤ (i 0 : Nat) ∧ (i 0 : Nat) < win0_1.index t 0 * 384 + win0_1.xsize (grid0.coords t) 0 := h 0
    rw [e0, e1] at h0; omega
  · intro h a
    match a with
    | ⟨0, _⟩ =>
      change win0_1.index t 0 * 384 ≤ (i 0 : Nat) ∧ (i 0 : Nat) < win0_1.index t 0 * 384 + win0_1.xsize (grid0.coords t) 0
      rw [e0, e1]; omega
    | ⟨1, _⟩ =>
      change win0_1.index t 1 * win0_1.size 1 ≤ (i 1 : Nat) ∧ (i 1 : Nat) < win0_1.index t 1 * win0_1.size 1 + win0_1.xsize (grid0.coords t) 1
      rw [e2, e3]; omega

/-- Every row below 2046 is in the block of point `row / 384`: the six blocks cover the array. -/
theorem cover (i : S2046x6138.Idx) :
    ∃ t : Fin cfg0.N, (cfg0.win 1).flush t = true ∧ i ∈ ((cfg0.win 1).blk t).view.set := by
  have hr : (i 0 : Nat) < 2046 := (i 0).isLt
  have hN : cfg0.N = 6 := N_0
  refine ⟨⟨(i 0 : Nat) / 384, by rw [hN]; omega⟩, flush0_1 _, ?_⟩
  rw [mem_blk]
  show 384 * ((i 0 : Nat) / 384) ≤ (i 0 : Nat) ∧ (i 0 : Nat) < 384 * ((i 0 : Nat) / 384) + min 384 (2046 - 384 * ((i 0 : Nat) / 384))
  omega

/-- What point `t` writes back is the input's block there: the result's window cuts and reads as the input's (one
    index map, one block shape, arrays of one shape). -/
theorem flushed_eq (c : Dev nD) (t : Fin cfg0.N) :
    (dats m 0 c).flushed 1 t = ((cfg0.win 1).blk t).view.read (Elt F) (xarr m c) := by
  show (cfg0.win 1).cut (grid0.coords t) ((dats m 0 c).after 1 t) = _
  rw [after_1]
  change win0_0.cut (grid0.coords t) (xfull m c t) = xblk m c t
  exact win0_0.cut_fill _ _ _

/-- The result array ends holding the reshaped picture. -/
theorem final_out (c : Dev nD) : (dats m 0 c).arrAt (1 : Fin 2) cfg0.N = V m c (Pipeline.arrRef spec0 0) :=
  (dats m 0 c).arrAt_eq_of_cover 1 (xarr m c) (fun t _ => flushed_eq m c t) cover

/-! ## The reshapes around the region -/

/-- The input window's array is the picture reshaped to rows of 6138 words: the one host operation before the region. -/
theorem xarr_eq (c : Dev nD) :
    xarr m c = shapeCast S2046x6138 (m ((c : Thread nD τ).loc main_arg0)) shapeCasts_S2046x2046x3_S2046x6138 := by
  show StableHlo.after hostOps0 (fun b => m (c, b)) (Proc.devRef .tc main_v0) = _
  after_results
  rfl

/-- The reshape after the region reads the result array, which holds the reshaped picture: reshaped back it is the
    picture. -/
theorem tail_out (c : Dev nD) :
    Pipeline.afterTail₀ cfgs (dats m) 0 (V0 m) [hostOps1] c main_v2 = m ((c : Thread nD τ).loc main_arg0) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = shapeCast S2046x6138 (m ((c : Thread nD τ).loc main_arg0)) shapeCasts_S2046x2046x3_S2046x6138 :=
    ((Pipeline.withArrays_arr spec0 launch0.win.arr_inj c _ _ 1).trans (final_out m c)).trans (xarr_eq m c)
  show shapeCast S2046x2046x3
      (Pipeline.withArrays (cfgs 0).spec c (V0 m c) (fun w => (dats m 0 c).arrAt w (cfgs 0).N) (Proc.tc.devRef main_v1))
      shapeCasts_S2046x6138_S2046x2046x3 = _
  rw [e]
  exact shapeCast_shapeCast _ _ _

/-! ## The run -/

/-- From any memory with zero counters every weakly fair execution of @main terminates with the result buffer holding
    the picture, and the picture's own buffer as launched. -/
theorem run : θ_run (defs (F := F)) (onTc (τ := τ) (main (F := F))) ⟨m, fun _ => 0, ρ⟩ (fun r => ∀ c : Dev nD,
      r.2.mem ((c.tc : Thread nD τ).loc main_v2) = m ((c.tc : Thread nD τ).loc main_arg0)
        ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (tail_out m c),
     ((h c).2 main_arg0 (Pipeline.mem_restRefs_of main_arg0 (by decide) (by decide))).trans (W_main_arg0 m (dats m) c)⟩)
    (run_main m ρ)

end Cert.Kernel.Hand

end
-- ==== Proof.KernelIdealRun.lean ====
/-
  The run of the copy kernel. @main reshapes the picture i32[2046, 2046, 3] to [2046, 6138], one pallas_call copies it
  through (384, 6138) blocks on a grid of six points, and a second reshape gives the picture's shape back. 2046 is not a
  multiple of 384: the sixth block holds rows 1920‥2045 and overhangs the array by 258 rows, in the input window and in
  the result's, so its transfers are cut at the array's end and the staging rows past it hold words nothing names.

  What is proved here, for any float values: the proof data of the pipeline (after the body both staging buffers hold the
  input's block on the rows inside the array), the body's triple (a whole load, a dead load, a whole store of the loaded
  block cast to its own shape), the body obligation in the loose form that states the buffers on the moved rows only,
  and `run_main`: from any memory with zero counters every weakly fair execution of @main terminates, the windows'
  arrays end at what the write-backs of the six points make of them, and every other unscoped buffer ends as the reshape
  after the region leaves it.
-/
import proofs.«407464_j39436389711988_3_alg».proof.Proof.Gen.KernelIdeal.Frame
import proofs.«407464_j39436389711988_3_alg».proof.Proof.Gen.KernelIdeal.Skeleton
import Idealize.ShloMosaic.Lib.Pipeline.Kit
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input's block at point `t` as the fetch reads it: the rows of the reshaped picture the block holds that lie
    inside the array (384 of them at points 0‥4, 126 at point 5). -/
def xblk (c : Dev nD) (t : Fin cfg0.N) : (win0_0.xblock (grid0.coords t)).Idx → Elt F .i32 := iblk m c 0 t

/-- That block filled out to the staging buffer's 384 rows with the zero word, which nothing reads. -/
def xfull (c : Dev nD) (t : Fin cfg0.N) : S384x6138.Idx → Elt F .i32 :=
  win0_0.fill (grid0.coords t) (fun _ => (0#32 : BitVec 32)) (xblk m c t)

/-- The proof data: both staging buffers hold the input's block after the body. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => xfull m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfull m c t := by dsimp only [dats]
theorem after_1 (c : Dev nD) (t : Fin cfg0.N) : (dats m 0 c).after 1 t = xfull m c t := by dsimp only [dats]

theorem nofetch_1 : ∀ t : Fin cfg0.N, (cfg0.win 1).fetch t = false :=
  (by decide +kernel : ∀ t : Fin grid0.N, win0_1.fetch t = false)

theorem before_0 (c : Dev nD) (t : Fin cfg0.N) (d) :
    (dats m 0 c).before (0 : Fin 2) t d = win0_0.fill (grid0.coords t) d (xblk m c t) := by
  unfold Dat.before; rw [if_pos (fetch0_0 t)]; rfl

theorem before_1 (c : Dev nD) (t : Fin cfg0.N) (d) : (dats m 0 c).before (1 : Fin 2) t d = d := by
  by_cases ht : t.val = 0
  · unfold Dat.before; rw [if_neg (by rw [nofetch_1 t]; exact Bool.false_ne_true), if_pos ht]
  · rw [Dat.before_of_pos _ 1 t ht (nofetch_1 t) d, if_pos (flush0_1 _)]

/-- The kernel's variants: none. -/
abbrev 𝒱₀ : Variants := Variants.none

theorem zero2 : (![0, 0] : Fin 2 → Nat) = fun _ => 0 := funext fun a => by fin_cases a <;> rfl

/-- A load through the whole of either staging buffer of the input's window reads the buffer's contents. -/
theorem load_in_0 (f : S384x6138.Idx → Elt F .i32) :
    (Memref.whole cc0_stg0_0 : Memref sig .tc _ _ _).view.readAt (Elt F) (Rect.unit (s := S384x6138) ![0, 0] S384x6138.size
      inb_S384x6138_S384x6138_0_0).toLoadRect f = f := Memref.readAt_unit_zero (Elt F) cc0_stg0_0 zero2 _ f
theorem load_in_1 (f : S384x6138.Idx → Elt F .i32) :
    (Memref.whole cc0_stg0_1 : Memref sig .tc _ _ _).view.readAt (Elt F) (Rect.unit (s := S384x6138) ![0, 0] S384x6138.size
      inb_S384x6138_S384x6138_0_0).toLoadRect f = f := Memref.readAt_unit_zero (Elt F) cc0_stg0_1 zero2 _ f
/-- An unmasked store through the whole of either staging buffer of the result's window leaves the payload there. -/
theorem store_out_0 (f w : S384x6138.Idx → Elt F .i32) :
    (((Memref.whole cc0_stg1_0).access (Rect.unit (s := S384x6138) ![0, 0] S384x6138.size inb_S384x6138_S384x6138_0_0)) :
      View sig .tc _ _ _).write (Elt F) f w Finset.univ = w := Memref.write_access_unit_zero_univ (Elt F) cc0_stg1_0 zero2 _ f w
theorem store_out_1 (f w : S384x6138.Idx → Elt F .i32) :
    (((Memref.whole cc0_stg1_1).access (Rect.unit (s := S384x6138) ![0, 0] S384x6138.size inb_S384x6138_S384x6138_0_0)) :
      View sig .tc _ _ _).write (Elt F) f w Finset.univ = w := Memref.write_access_unit_zero_univ (Elt F) cc0_stg1_1 zero2 _ f w

/-- The body on staging buffer `s0` of the input's window and `s1` of the result's: the whole load of the input's
    buffer, the dead load of the result's, the whole store of the loaded block (cast to its own shape, the identity) —
    the result's buffer ends holding what the input's holds, that one unchanged. -/
theorem sound_body (c : Dev nD) (E : Set ℕ) (i : grid0.Coords) (s0 : Fin 2) (s1 : Fin 2)
    (X0 X1 : S384x6138.Idx → Elt F .i32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare X0) -∗ K ⟨⟩))
      ⊢ wp frame (wpE (defs₀ (F := F)) 𝒱₀ c none) E
          (cc0__copy_kernel i (stage0_0 s0) (hstage0_0 s0) (stage0_1 s1) (hstage0_1 s1)) K := by
  have hpay : ∀ v : Vec F S384x6138 .i32, k0_pay1 v = v := fun v => shapeCast_self v _
  fin_cases s0 <;> fin_cases s1
  all_goals
    simp only [owns_whole_eq, cc0__copy_kernel_eq_skeleton]; unfold cc0__copy_kernel_skel
    simp only [Prog.lift, Prog.bind_op, Prog.bind_ret]
    iintro ⟨⟨⟨%f0, %hf0, H0⟩, ⟨%f1, %hf1, H1⟩⟩, Hk⟩
    sl_steps
    iapply Hk
    first | rw [load_in_0] | rw [load_in_1]
    first | rw [store_out_0] | rw [store_out_1]
    rw [hpay]
    isplitl [H0]
    · iexists f0; isplitr; · ipureintro; exact hf0
      iexact H0
    · iexists f0; isplitr; · ipureintro; exact hf0
      iexact H1

/-- The library's body obligation, from `sound_body` at the point's staging buffers: the input's buffer arrives
    holding its block filled out with `d` past the array's end (`before_0`), the result's holding anything
    (`before_1`); both leave holding the former, which on the rows inside the array is `xfull`'s — all either loose
    window's obligation asks. The invariant (scratch and generator register: the body touches neither) and the
    core's dues pass through. -/
theorem body_obligation (c : Dev nD) : BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0, before_1 m c t d1, after_0 m c t, after_1 m c t]
  iapply (sound_body (F := F) c Set.univ (grid0.coords t) (cfg0.slots t 0) (cfg0.slots t 1)
    (win0_0.fill (grid0.coords t) d0 (xblk m c t)) d1 _)
  isplitl [H0 H1]
  · isplitl [H0]
    · iexact H0
    · iexact H1
  iintro ⟨H0, H1⟩
  isplitl [HΦ]; · iexact HΦ
  isplitl [Ho]; · iexact Ho
  have hx : win0_0.cut (grid0.coords t) (xfull m c t) = xblk m c t := win0_0.cut_fill _ _ _
  isplitl [H0]
  · iexists d0
    change _ ⊢ owns (c : Thread nD τ) (stage0_0 (cfg0.slots t 0)) fullShare (win0_0.fill (grid0.coords t) d0 (win0_0.cut (grid0.coords t) (xfull m c t)))
    rw [hx]
  · iexists d0
    change _ ⊢ owns (c : Thread nD τ) (stage0_1 (cfg0.slots t 1)) fullShare (win0_0.fill (grid0.coords t) d0 (win0_0.cut (grid0.coords t) (xfull m c t)))
    rw [hx]

set_option backward.isDefEq.respectTransparency.types false in
/-- At the compiled mesh, for any values, from any memory with zero counters: every weakly fair execution of @main
    terminates, every array of the pipeline ends at what the library computes from the proof data, and every other
    unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

end Cert.KernelIdeal.Hand

end
-- ==== Proof.KernelIdealValue.lean ====
/-
  The copy kernel's result is the picture.

  @main reshapes the picture i32[2046, 2046, 3] to rows of 6138 words, one pallas_call copies the rows through
  (384, 6138) blocks on a grid of six points, and a second reshape gives the picture's shape back. The run leaves the
  result window's array as the six write-backs make it, each the rows inside the array of what the body left in the
  staging buffer; those rows are the input window's block at the same point, and the two windows have one index map,
  one block shape and arrays of one shape, so every point writes back its block of ONE array, the reshaped picture.
  Point `t`'s block holds rows `384 t` up to `384 t + min 384 (2046 − 384 t)`, so row `r` lies in the block of point
  `r / 384` and the six blocks cover the array: it ends holding the reshaped picture. The reshape after the region
  reads that array, and a reshape followed by the reshape back is the identity: the result buffer holds the picture.
  The picture's own buffer is written by no operation and ends as launched.
-/
import proofs.«407464_j39436389711988_3_alg».proof.Proof.KernelIdealRun

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The result array after the six points -/

/-- The reshaped picture as the region finds it: the input window's array. -/
abbrev xarr (c : Dev nD) : Vec F S2046x6138 .i32 := V m c main_v0

/-- Where the result's blocks sit, decided once over the six points: point `t`'s block starts at row `384 t`, holds
    `min 384 (2046 − 384 t)` rows of the array, and spans the lanes. -/
theorem idx_facts : ∀ t : Fin cfg0.N, win0_1.index t 0 = t.val ∧ win0_1.xsize (grid0.coords t) 0 = min 384 (2046 - 384 * t.val)
    ∧ win0_1.index t 1 * win0_1.size 1 = 0 ∧ win0_1.xsize (grid0.coords t) 1 = 6138 :=
  (by decide +kernel : ∀ t : Fin grid0.N, win0_1.index t 0 = t.val ∧ win0_1.xsize (grid0.coords t) 0 = min 384 (2046 - 384 * t.val)
    ∧ win0_1.index t 1 * win0_1.size 1 = 0 ∧ win0_1.xsize (grid0.coords t) 1 = 6138)

/-- An index of the array is in point `t`'s block iff its row is among the block's rows inside the array. -/
theorem mem_blk (t : Fin cfg0.N) (i : S2046x6138.Idx) :
    i ∈ ((cfg0.win 1).blk t).view.set ↔ 384 * t.val ≤ (i 0 : Nat) ∧ (i 0 : Nat) < 384 * t.val + min 384 (2046 - 384 * t.val) := by
  show i ∈ ((View.whole main_v1).slice (win0_1.rect t)).set ↔ _
  rw [View.set_slice_whole, Rect.mem_set_unit]
  obtain ⟨e0, e1, e2, e3⟩ := idx_facts t
  have h1 : (i 1 : Nat) < 6138 := (i 1).isLt
  constructor
  · intro h
    have h0 : win0_1.index t 0 * 384 ≤ (i 0 : Nat) ∧ (i 0 : Nat) < win0_1.index t 0 * 384 + win0_1.xsize (grid0.coords t) 0 := h 0
    rw [e0, e1] at h0; omega
  · intro h a
    match a with
    | ⟨0, _⟩ =>
      change win0_1.index t 0 * 384 ≤ (i 0 : Nat) ∧ (i 0 : Nat) < win0_1.index t 0 * 384 + win0_1.xsize (grid0.coords t) 0
      rw [e0, e1]; omega
    | ⟨1, _⟩ =>
      change win0_1.index t 1 * win0_1.size 1 ≤ (i 1 : Nat) ∧ (i 1 : Nat) < win0_1.index t 1 * win0_1.size 1 + win0_1.xsize (grid0.coords t) 1
      rw [e2, e3]; omega

/-- Every row below 2046 is in the block of point `row / 384`: the six blocks cover the array. -/
theorem cover (i : S2046x6138.Idx) :
    ∃ t : Fin cfg0.N, (cfg0.win 1).flush t = true ∧ i ∈ ((cfg0.win 1).blk t).view.set := by
  have hr : (i 0 : Nat) < 2046 := (i 0).isLt
  have hN : cfg0.N = 6 := N_0
  refine ⟨⟨(i 0 : Nat) / 384, by rw [hN]; omega⟩, flush0_1 _, ?_⟩
  rw [mem_blk]
  show 384 * ((i 0 : Nat) / 384) ≤ (i 0 : Nat) ∧ (i 0 : Nat) < 384 * ((i 0 : Nat) / 384) + min 384 (2046 - 384 * ((i 0 : Nat) / 384))
  omega

/-- What point `t` writes back is the input's block there: the result's window cuts and reads as the input's (one
    index map, one block shape, arrays of one shape). -/
theorem flushed_eq (c : Dev nD) (t : Fin cfg0.N) :
    (dats m 0 c).flushed 1 t = ((cfg0.win 1).blk t).view.read (Elt F) (xarr m c) := by
  show (cfg0.win 1).cut (grid0.coords t) ((dats m 0 c).after 1 t) = _
  rw [after_1]
  change win0_0.cut (grid0.coords t) (xfull m c t) = xblk m c t
  exact win0_0.cut_fill _ _ _

/-- The result array ends holding the reshaped picture. -/
theorem final_out (c : Dev nD) : (dats m 0 c).arrAt (1 : Fin 2) cfg0.N = V m c (Pipeline.arrRef spec0 0) :=
  (dats m 0 c).arrAt_eq_of_cover 1 (xarr m c) (fun t _ => flushed_eq m c t) cover

/-! ## The reshapes around the region -/

/-- The input window's array is the picture reshaped to rows of 6138 words: the one host operation before the region. -/
theorem xarr_eq (c : Dev nD) :
    xarr m c = shapeCast S2046x6138 (m ((c : Thread nD τ).loc main_arg0)) shapeCasts_S2046x2046x3_S2046x6138 := by
  show StableHlo.after hostOps0 (fun b => m (c, b)) (Proc.devRef .tc main_v0) = _
  after_results
  rfl

/-- The reshape after the region reads the result array, which holds the reshaped picture: reshaped back it is the
    picture. -/
theorem tail_out (c : Dev nD) :
    Pipeline.afterTail₀ cfgs (dats m) 0 (V0 m) [hostOps1] c main_v2 = m ((c : Thread nD τ).loc main_arg0) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = shapeCast S2046x6138 (m ((c : Thread nD τ).loc main_arg0)) shapeCasts_S2046x2046x3_S2046x6138 :=
    ((Pipeline.withArrays_arr spec0 launch0.win.arr_inj c _ _ 1).trans (final_out m c)).trans (xarr_eq m c)
  show shapeCast S2046x2046x3
      (Pipeline.withArrays (cfgs 0).spec c (V0 m c) (fun w => (dats m 0 c).arrAt w (cfgs 0).N) (Proc.tc.devRef main_v1))
      shapeCasts_S2046x6138_S2046x2046x3 = _
  rw [e]
  exact shapeCast_shapeCast _ _ _

/-! ## The run -/

/-- From any memory with zero counters every weakly fair execution of @main terminates with the result buffer holding
    the picture, and the picture's own buffer as launched. -/
theorem run : θ_run (defs (F := F)) (onTc (τ := τ) (main (F := F))) ⟨m, fun _ => 0, ρ⟩ (fun r => ∀ c : Dev nD,
      r.2.mem ((c.tc : Thread nD τ).loc main_v2) = m ((c.tc : Thread nD τ).loc main_arg0)
        ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (tail_out m c),
     ((h c).2 main_arg0 (Pipeline.mem_restRefs_of main_arg0 (by decide) (by decide))).trans (W_main_arg0 m (dats m) c)⟩)
    (run_main m ρ)

end Cert.KernelIdeal.Hand

end
-- ==== Proof.RefSpec.lean ====
/-
  The reference's stages as functions of the image, named.

  The reference cuts the image (channel first) into 3·341·341 tiles of 6×6 pixels, one row of 36 per tile
  (`tiles`); gives pixel `p` of tile `k` the segment id `256·k + value` (`seg`) and counts the ids (`hist`: row `k`
  is tile `k`'s 256-bin histogram when every value is a byte); takes each tile's largest value (`vmax`) and the
  count in that bin (`cnt`); and forms `step = (36 − cnt) div 255` rounded down (`floorDiv`, `step`). Where `step`
  is zero the tile is kept, elsewhere a remapped tile `rm` is taken; the rows are laid back as an image, written
  over the whole channel-first image, and the channels moved last again (`finish`). The remapped rows enter
  `finish` only through that choice, so they stay a free argument here: `out x rm`.
-/
import proofs.«407464_j39436389711988_3_alg».proof.ReferenceIdeal

noncomputable section

namespace Cert.ReferenceIdeal.Spec

open Idealize.ShloMosaic Cert.ReferenceIdeal

variable [Facts]
open Facts₀ Facts

/-- Every entry is a byte value: as an unsigned number at most 255 (so, read signed, between 0 and 255). -/
def Byte {s : Shape} (x : IVec s 32) : Prop := ∀ i, (x i).toNat ≤ 255

/-- The image with the channel axis first. -/
def img (x : IVec S2046x2046x3 32) : IVec S3x2046x2046 32 :=
  transpose S3x2046x2046 [2, 0, 1] x transposes_S2046x2046x3_S3x2046x2046_2_0_1

/-- Row `k = (channel·341 + tile row)·341 + tile column` holds that tile's 36 pixels, row by row. -/
def tiles (x : IVec S2046x2046x3 32) : IVec S348843x36 32 :=
  shapeCast S348843x36
    (transpose S3x341x341x6x6 [0, 1, 3, 2, 4]
      (shapeCast S3x341x6x341x6 (img x) shapeCasts_S3x2046x2046_S3x341x6x341x6)
      transposes_S3x341x6x341x6_S3x341x341x6x6_0_1_3_2_4)
    shapeCasts_S3x341x341x6x6_S348843x36

/-- The segment id of each pixel: 256 times its tile's number plus its value. -/
def seg (t : IVec S348843x36 32) : IVec S12558348 32 :=
  shapeCast S12558348
    (addi
      (broadcastInDim S348843x36 ![0, 1] bcast_S348843x1_S348843x36_0_1
        (muli (broadcastInDim S348843x1 ![0] bcast_S348843_S348843x1_0 (iotaInDim S348843 32 0))
          (broadcastInDim S348843x1 ![] bcast_S_S348843x1 (constantI S_ 32 256#32))))
      t)
    shapeCasts_S348843x36_S12558348

/-- How many pixels carry each segment id, as 348843 rows of 256 bins. -/
def hist (t : IVec S348843x36 32) : IVec S348843x256 32 :=
  shapeCast S348843x256
    (Host.scatter scatter_S89303808_S12558348x1_S12558348_n_0_0_1 IntOp.addi
      (broadcastInDim S89303808 ![] bcast_S_S89303808 (constantI S_ 32 0#32))
      (broadcastInDim S12558348x1 ![0] bcast_S12558348_S12558348x1_0 (seg t))
      (broadcastInDim S12558348 ![] bcast_S_S12558348 (constantI S_ 32 1#32)))
    shapeCasts_S89303808_S348843x256

/-- Each tile's largest value (signed maximum from the least integer). -/
def vmax (t : IVec S348843x36 32) : IVec S348843 32 :=
  Host.reduce IntOp.maxsi t (constantI S_ 32 2147483648#32) reducesTo_S348843x36_S348843_d1 h_S_

/-- A column of bin numbers made ready for the gather: a negative one moved up by 256. -/
def takeIdx (i : IVec S348843x1 32) : IVec S348843x1x1 32 :=
  shapeCast S348843x1x1
    (select (cmpi .slt i (broadcastInDim S348843x1 ![] bcast_S_S348843x1 (constantI S_ 32 0#32)))
      (addi i (broadcastInDim S348843x1 ![] bcast_S_S348843x1 (constantI S_ 32 256#32))) i)
    shapeCasts_S348843x1_S348843x1x1

/-- Whether such a bin number lies in 0‥255. -/
def takeOk (i5 : IVec S348843x1x1 32) : IVec S348843x1 1 :=
  Host.reduce IntOp.andi
    (andi (cmpi .sge i5 (broadcastInDim S348843x1x1 ![] bcast_S_S348843x1x1 (constantI S_ 32 0#32)))
      (cmpi .sle i5 (broadcastInDim S348843x1x1 ![0, 1, 2] bcast_S1x1x1_S348843x1x1_0_1_2
        (broadcastInDim S1x1x1 ![2] bcast_S1_S1x1x1_2 (constantI S1 32 255#32)))))
    (constantI S_ 1 1#1) reducesTo_S348843x1x1_S348843x1_d2 h_S_

/-- The count standing in each row's bin `v` (the least integer where `v` is no bin number). -/
def cnt (h : IVec S348843x256 32) (v : IVec S348843 32) : IVec S348843 32 :=
  shapeCast S348843
    (select (takeOk (takeIdx (broadcastInDim S348843x1 ![0] bcast_S348843_S348843x1_0 v)))
      (Host.gather gather_S348843x256_S348843x1x1_S348843x1_n_1_0_0_1_2_11 h
        (takeIdx (broadcastInDim S348843x1 ![0] bcast_S348843_S348843x1_0 v)))
      (broadcastInDim S348843x1 ![] bcast_S_S348843x1 (constantI S_ 32 2147483648#32)))
    shapeCasts_S348843x1_S348843

/-- Division by 255 rounded towards minus infinity: the truncated quotient, less one where the signs differ and
    the remainder is not zero. -/
def floorDiv (a : IVec S348843 32) : IVec S348843 32 :=
  select
    (andi
      (cmpi .ne (signi a) (broadcastInDim S348843 ![] bcast_S_S348843 (signi (id (constantI S_ 32 255#32)))))
      (cmpi .ne (Host.remsi a (broadcastInDim S348843 ![] bcast_S_S348843 (id (constantI S_ 32 255#32))))
        (broadcastInDim S348843 ![] bcast_S_S348843 (constantI S_ 32 0#32))))
    (subi (Host.divsi a (broadcastInDim S348843 ![] bcast_S_S348843 (id (constantI S_ 32 255#32))))
      (broadcastInDim S348843 ![] bcast_S_S348843 (constantI S_ 32 1#32)))
    (Host.divsi a (broadcastInDim S348843 ![] bcast_S_S348843 (id (constantI S_ 32 255#32))))

/-- `(36 − cnt) div 255`, rounded down. -/
def step (cn : IVec S348843 32) : IVec S348843 32 :=
  floorDiv (subi (broadcastInDim S348843 ![] bcast_S_S348843 (constantI S_ 32 36#32)) cn)

/-- Tile rows chosen by `step = 0` (the tile itself) or not (the remapped row), laid back as an image, written over
    the whole channel-first image, channels last again. -/
def finish (x : IVec S2046x2046x3 32) (t : IVec S348843x36 32) (st : IVec S348843 32) (rm : IVec S348843x36 32) :
    IVec S2046x2046x3 32 :=
  transpose S2046x2046x3 [1, 2, 0]
    (Host.scatter scatter_S3x2046x2046_S0_S3x2046x2046_012_n_n_0 (fun _ b => b) (img x) (emptyVec S0 hz_S0 : IVec S0 32)
      (shapeCast S3x2046x2046
        (transpose S3x341x6x341x6 [0, 1, 3, 2, 4]
          (shapeCast S3x341x341x6x6
            (select
              (broadcastInDim S348843x36 ![0, 1] bcast_S348843x1_S348843x36_0_1
                (broadcastInDim S348843x1 ![0] bcast_S348843_S348843x1_0
                  (cmpi .eq st (broadcastInDim S348843 ![] bcast_S_S348843 (constantI S_ 32 0#32)))))
              t rm)
            shapeCasts_S348843x36_S3x341x341x6x6)
          transposes_S3x341x341x6x6_S3x341x6x341x6_0_1_3_2_4)
        shapeCasts_S3x341x6x341x6_S3x2046x2046))
    transposes_S3x2046x2046_S2046x2046x3_1_2_0

/-- The reference's result as a function of the image and of whatever the remapped rows are. -/
def out (x : IVec S2046x2046x3 32) (rm : IVec S348843x36 32) : IVec S2046x2046x3 32 :=
  finish x (tiles x) (step (cnt (hist (tiles x)) (vmax (tiles x)))) rm

/-- A tile's pixels are pixels of the image: bytes if those are. -/
theorem tiles_byte (x : IVec S2046x2046x3 32) (hx : Byte x) : Byte (tiles x) := fun _ => hx _

end Cert.ReferenceIdeal.Spec

end
-- ==== Proof.RefRun.lean ====
/-
  The run of the reference's @main.

  @main calls functions (the running sum, which itself calls one; three rounded-down divisions, each calling a
  choice; two table lookups; a pad; a clip; a choice). Run, each call is the callee's operations on the call's own
  buffers, so @main is one straight line of 156 operations. They are listed here in twelve stretches, in the order
  they run, and the program is shown equal to that line. The fold of the line over the launch contents is then read
  stretch by stretch, each stretch from whatever contents it finds: what it leaves at the buffers read later is the
  specification's stage of what it found at the buffers it reads. The stretch that computes the remapped rows writes
  no buffer the last stretch reads except those rows, which the statement keeps as they come. So every weakly fair
  execution ends with the result buffer at `Spec.out` of the image and those rows, and the image unchanged.
-/
import proofs.«407464_j39436389711988_3_alg».proof.Proof.RefSpec
import Idealize.ShloMosaic.Lib.StableHlo.Run

noncomputable section

namespace Cert.ReferenceIdeal.Hand

open Cert.ReferenceIdeal Idealize.ShloMosaic Idealize.ShloMosaic.StableHlo Idealize.SL.Sem

variable {F : FTy → Type} [FloatOps F]
variable [Facts]
open Facts₀ Facts

/-! ## The line -/

/-- The empty index table, then the image with its channels first (`main_v0`) cut into tiles, one row of 36 a tile
    (`main_v3`). -/
abbrev opsTiles : List (HloOp τ sig (Elt F)) :=
  [ nullary main_c (emptyVec S0 hz_S0),
    unary main_arg0 main_v0 ((transpose S3x2046x2046 [2, 0, 1] · transposes_S2046x2046x3_S3x2046x2046_2_0_1) : (⟨S2046x2046x3, .i32⟩ : BufTy).Contents (Elt F) → (⟨S3x2046x2046, .i32⟩ : BufTy).Contents (Elt F)),
    reshape main_v0 main_v1 rfl shapeCasts_S3x2046x2046_S3x341x6x341x6,
    unary main_v1 main_v2 ((transpose S3x341x341x6x6 [0, 1, 3, 2, 4] · transposes_S3x341x6x341x6_S3x341x341x6x6_0_1_3_2_4) : (⟨S3x341x6x341x6, .i32⟩ : BufTy).Contents (Elt F) → (⟨S3x341x341x6x6, .i32⟩ : BufTy).Contents (Elt F)),
    reshape main_v2 main_v3 rfl shapeCasts_S3x341x341x6x6_S348843x36 ]

/-- Each pixel's segment id: 256 times its tile's number plus its value, as one long vector (`main_v10`). -/
abbrev opsSeg : List (HloOp τ sig (Elt F)) :=
  [ nullary main_v4 (iotaInDim S348843 32 0),
    unary main_v4 main_v5 (broadcastInDim S348843x1 ![0] bcast_S348843_S348843x1_0 : (⟨S348843, .i32⟩ : BufTy).Contents (Elt F) → (⟨S348843x1, .i32⟩ : BufTy).Contents (Elt F)),
    nullary main_c_0 (constantI S_ 32 256#32),
    unary main_c_0 main_v6 (broadcastInDim S348843x1 ![] bcast_S_S348843x1 : (⟨S_, .i32⟩ : BufTy).Contents (Elt F) → (⟨S348843x1, .i32⟩ : BufTy).Contents (Elt F)),
    binary main_v5 main_v6 main_v7 (muli : (⟨S348843x1, .i32⟩ : BufTy).Contents (Elt F) → (⟨S348843x1, .i32⟩ : BufTy).Contents (Elt F) → (⟨S348843x1, .i32⟩ : BufTy).Contents (Elt F)),
    unary main_v7 main_v8 (broadcastInDim S348843x36 ![0, 1] bcast_S348843x1_S348843x36_0_1 : (⟨S348843x1, .i32⟩ : BufTy).Contents (Elt F) → (⟨S348843x36, .i32⟩ : BufTy).Contents (Elt F)),
    binary main_v8 main_v3 main_v9 (addi : (⟨S348843x36, .i32⟩ : BufTy).Contents (Elt F) → (⟨S348843x36, .i32⟩ : BufTy).Contents (Elt F) → (⟨S348843x36, .i32⟩ : BufTy).Contents (Elt F)),
    reshape main_v9 main_v10 rfl shapeCasts_S348843x36_S12558348 ]

/-- The ones scattered by addition at the segment ids over 89303808 zeros, read as 348843 rows of 256 bins
    (`main_v15`). -/
abbrev opsHist : List (HloOp τ sig (Elt F)) :=
  [ nullary main_c_1 (constantI S_ 32 1#32),
    unary main_c_1 main_v11 (broadcastInDim S12558348 ![] bcast_S_S12558348 : (⟨S_, .i32⟩ : BufTy).Contents (Elt F) → (⟨S12558348, .i32⟩ : BufTy).Contents (Elt F)),
    nullary main_c_2 (constantI S_ 32 0#32),
    unary main_c_2 main_v12 (broadcastInDim S89303808 ![] bcast_S_S89303808 : (⟨S_, .i32⟩ : BufTy).Contents (Elt F) → (⟨S89303808, .i32⟩ : BufTy).Contents (Elt F)),
    unary main_v10 main_v13 (broadcastInDim S12558348x1 ![0] bcast_S12558348_S12558348x1_0 : (⟨S12558348, .i32⟩ : BufTy).Contents (Elt F) → (⟨S12558348x1, .i32⟩ : BufTy).Contents (Elt F)),
    ternary main_v12 main_v13 main_v11 main_v14 ((fun x i u => Host.scatter scatter_S89303808_S12558348x1_S12558348_n_0_0_1 IntOp.addi x i u) : (⟨S89303808, .i32⟩ : BufTy).Contents (Elt F) → (⟨S12558348x1, .i32⟩ : BufTy).Contents (Elt F) → (⟨S12558348, .i32⟩ : BufTy).Contents (Elt F) → (⟨S89303808, .i32⟩ : BufTy).Contents (Elt F)),
    reshape main_v14 main_v15 rfl shapeCasts_S89303808_S348843x256 ]

/-- The running sum along each histogram row: the callee of the callee's three operations (the zero, its copy,
    the windowed sum) on the inner record's buffers, ending in `main_v16`. -/
abbrev opsCumsum : List (HloOp τ sig (Elt F)) :=
  [ TRef.nullary main_call0.call0.c (constantI S_ 32 0#32),
    TRef.unary main_call0.call0.c main_call0.call0.v0 (broadcastInDim S_ ![] bcast_S_S_),
    TRef.binary (.of main_v15 : TRef sig ⟨S348843x256, .i32⟩) main_call0.call0.v0 main_call0.call0.v1 (fun x v => Host.reduceWindow IntOp.addi ![1, 256] ![1, 1] ![0, 255] ![0, 0] x v reduceWindows_S348843x256_S348843x256_w1s1p0_0_w256s1p255_0 h_S_) ]

/-- Each tile's largest value, and that as a column (`main_v18`). -/
abbrev opsMax : List (HloOp τ sig (Elt F)) :=
  [ nullary main_c_3 (constantI S_ 32 2147483648#32),
    binary main_v3 main_c_3 main_v17 ((fun x v => Host.reduce IntOp.maxsi x v reducesTo_S348843x36_S348843_d1 h_S_) : (⟨S348843x36, .i32⟩ : BufTy).Contents (Elt F) → (⟨S_, .i32⟩ : BufTy).Contents (Elt F) → (⟨S348843, .i32⟩ : BufTy).Contents (Elt F)),
    unary main_v17 main_v18 (broadcastInDim S348843x1 ![0] bcast_S348843_S348843x1_0 : (⟨S348843, .i32⟩ : BufTy).Contents (Elt F) → (⟨S348843x1, .i32⟩ : BufTy).Contents (Elt F)) ]

/-- The lookup's first eight operations: the column of bin numbers made ready for the gather, a negative one
    moved up by 256 (the call's `v5`). -/
abbrev opsTakeIdx : List (HloOp τ sig (Elt F)) :=
  [ TRef.nullary main_call1.c (constantI S_ 32 0#32),
    TRef.unary main_call1.c main_call1.v0 (broadcastInDim S348843x1 ![] bcast_S_S348843x1),
    TRef.binary (.of main_v18 : TRef sig ⟨S348843x1, .i32⟩) main_call1.v0 main_call1.v1 (cmpi .slt),
    TRef.nullary main_call1.c_0 (constantI S_ 32 256#32),
    TRef.unary main_call1.c_0 main_call1.v2 (broadcastInDim S348843x1 ![] bcast_S_S348843x1),
    TRef.binary (.of main_v18 : TRef sig ⟨S348843x1, .i32⟩) main_call1.v2 main_call1.v3 addi,
    TRef.ternary main_call1.v1 main_call1.v3 (.of main_v18 : TRef sig ⟨S348843x1, .i32⟩) main_call1.v4 select,
    TRef.reshape main_call1.v4 main_call1.v5 rfl shapeCasts_S348843x1_S348843x1x1 ]

/-- The lookup's next ten: whether each bin number lies in 0‥255 (the call's `v12`). -/
abbrev opsTakeOk : List (HloOp τ sig (Elt F)) :=
  [ TRef.nullary main_call1.c_1 (constantI S1 32 255#32),
    TRef.nullary main_call1.c_2 (constantI S_ 32 0#32),
    TRef.unary main_call1.c_2 main_call1.v6 (broadcastInDim S348843x1x1 ![] bcast_S_S348843x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S348843x1x1 ![0, 1, 2] bcast_S1x1x1_S348843x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S348843x1x1_S348843x1_d2 h_S_) ]

/-- The lookup's last four and the reshape after it: the count gathered from each row's bin, the least integer
    where the bin number is none, as a vector (`main_v20`). -/
abbrev opsCnt : List (HloOp τ sig (Elt F)) :=
  [ TRef.binary (.of main_v15 : TRef sig ⟨S348843x256, .i32⟩) main_call1.v5 main_call1.v13 (fun x i => Host.gather gather_S348843x256_S348843x1x1_S348843x1_n_1_0_0_1_2_11 x i),
    TRef.nullary main_call1.c_4 (constantI S_ 32 2147483648#32),
    TRef.unary main_call1.c_4 main_call1.v14 (broadcastInDim S348843x1 ![] bcast_S_S348843x1),
    TRef.ternary main_call1.v12 main_call1.v13 main_call1.v14 main_call1.v15 select,
    reshape main_v19 main_v20 rfl shapeCasts_S348843x1_S348843 ]

/-- Thirty-six less the count (`main_v22`), and the divisor 255 (`main_c_5`). -/
abbrev opsSub : List (HloOp τ sig (Elt F)) :=
  [ nullary main_c_4 (constantI S_ 32 36#32),
    unary main_c_4 main_v21 (broadcastInDim S348843 ![] bcast_S_S348843 : (⟨S_, .i32⟩ : BufTy).Contents (Elt F) → (⟨S348843, .i32⟩ : BufTy).Contents (Elt F)),
    binary main_v21 main_v20 main_v22 (subi : (⟨S348843, .i32⟩ : BufTy).Contents (Elt F) → (⟨S348843, .i32⟩ : BufTy).Contents (Elt F) → (⟨S348843, .i32⟩ : BufTy).Contents (Elt F)),
    nullary main_c_5 (constantI S_ 32 255#32) ]

/-- The rounded-down division's sixteen operations and the choice it calls: the step (`main_v23`). -/
abbrev opsFloorDiv : List (HloOp τ sig (Elt F)) :=
  [ TRef.unary (.of main_c_5 : TRef sig ⟨S_, .i32⟩) main_call2.v0 id,
    TRef.unary main_call2.v0 main_call2.v1 (broadcastInDim S348843 ![] bcast_S_S348843),
    TRef.binary (.of main_v22 : TRef sig ⟨S348843, .i32⟩) main_call2.v1 main_call2.v2 Host.divsi,
    TRef.unary (.of main_v22 : TRef sig ⟨S348843, .i32⟩) main_call2.v3 signi,
    TRef.unary main_call2.v0 main_call2.v4 signi,
    TRef.unary main_call2.v4 main_call2.v5 (broadcastInDim S348843 ![] bcast_S_S348843),
    TRef.binary main_call2.v3 main_call2.v5 main_call2.v6 (cmpi .ne),
    TRef.unary main_call2.v0 main_call2.v7 (broadcastInDim S348843 ![] bcast_S_S348843),
    TRef.binary (.of main_v22 : TRef sig ⟨S348843, .i32⟩) main_call2.v7 main_call2.v8 Host.remsi,
    TRef.nullary main_call2.c (constantI S_ 32 0#32),
    TRef.unary main_call2.c main_call2.v9 (broadcastInDim S348843 ![] bcast_S_S348843),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S348843 ![] bcast_S_S348843),
    TRef.binary main_call2.v2 main_call2.v12 main_call2.v13 subi,
    TRef.ternary main_call2.v11 main_call2.v13 main_call2.v2 main_call2.call0.v0 select ]

/-- Everything that goes into the remapped rows: the step raised to at least one and halved, rounded down
    (`main_v24` … `main_v27`); the running sums plus that half, divided by the step, rounded down (`main_v28` …
    `main_v31`); shifted one bin to the right behind a zero, cut back to 256 bins and clipped to 0‥255 (`main_v32` …
    `main_v34`); and each pixel's entry looked up in its tile's row (`main_v35`). -/
abbrev opsRemap : List (HloOp τ sig (Elt F)) :=
  [ nullary main_c_6 (constantI S_ 32 1#32),
    unary main_c_6 main_v24 (broadcastInDim S348843 ![] bcast_S_S348843 : (⟨S_, .i32⟩ : BufTy).Contents (Elt F) → (⟨S348843, .i32⟩ : BufTy).Contents (Elt F)),
    binary main_v23 main_v24 main_v25 (maxsi : (⟨S348843, .i32⟩ : BufTy).Contents (Elt F) → (⟨S348843, .i32⟩ : BufTy).Contents (Elt F) → (⟨S348843, .i32⟩ : BufTy).Contents (Elt F)),
    unary main_v25 main_v26 (broadcastInDim S348843x1 ![0] bcast_S348843_S348843x1_0 : (⟨S348843, .i32⟩ : BufTy).Contents (Elt F) → (⟨S348843x1, .i32⟩ : BufTy).Contents (Elt F)),
    nullary main_c_7 (constantI S_ 32 2#32),
    TRef.unary (.of main_c_7 : TRef sig ⟨S_, .i32⟩) main_call3.v0 id,
    TRef.unary main_call3.v0 main_call3.v1 (broadcastInDim S348843x1 ![] bcast_S_S348843x1),
    TRef.binary (.of main_v26 : TRef sig ⟨S348843x1, .i32⟩) main_call3.v1 main_call3.v2 Host.divsi,
    TRef.unary (.of main_v26 : TRef sig ⟨S348843x1, .i32⟩) main_call3.v3 signi,
    TRef.unary main_call3.v0 main_call3.v4 signi,
    TRef.unary main_call3.v4 main_call3.v5 (broadcastInDim S348843x1 ![] bcast_S_S348843x1),
    TRef.binary main_call3.v3 main_call3.v5 main_call3.v6 (cmpi .ne),
    TRef.unary main_call3.v0 main_call3.v7 (broadcastInDim S348843x1 ![] bcast_S_S348843x1),
    TRef.binary (.of main_v26 : TRef sig ⟨S348843x1, .i32⟩) main_call3.v7 main_call3.v8 Host.remsi,
    TRef.nullary main_call3.c (constantI S_ 32 0#32),
    TRef.unary main_call3.c main_call3.v9 (broadcastInDim S348843x1 ![] bcast_S_S348843x1),
    TRef.binary main_call3.v8 main_call3.v9 main_call3.v10 (cmpi .ne),
    TRef.binary main_call3.v6 main_call3.v10 main_call3.v11 andi,
    TRef.nullary main_call3.c_0 (constantI S_ 32 1#32),
    TRef.unary main_call3.c_0 main_call3.v12 (broadcastInDim S348843x1 ![] bcast_S_S348843x1),
    TRef.binary main_call3.v2 main_call3.v12 main_call3.v13 subi,
    TRef.ternary main_call3.v11 main_call3.v13 main_call3.v2 main_call3.call0.v0 select,
    unary main_v27 main_v28 (broadcastInDim S348843x256 ![0, 1] bcast_S348843x1_S348843x256_0_1 : (⟨S348843x1, .i32⟩ : BufTy).Contents (Elt F) → (⟨S348843x256, .i32⟩ : BufTy).Contents (Elt F)),
    binary main_v16 main_v28 main_v29 (addi : (⟨S348843x256, .i32⟩ : BufTy).Contents (Elt F) → (⟨S348843x256, .i32⟩ : BufTy).Contents (Elt F) → (⟨S348843x256, .i32⟩ : BufTy).Contents (Elt F)),
    unary main_v25 main_v30 (broadcastInDim S348843x1 ![0] bcast_S348843_S348843x1_0 : (⟨S348843, .i32⟩ : BufTy).Contents (Elt F) → (⟨S348843x1, .i32⟩ : BufTy).Contents (Elt F)),
    TRef.unary (.of main_v30 : TRef sig ⟨S348843x1, .i32⟩) main_call4.v0 (broadcastInDim S348843x256 ![0, 1] bcast_S348843x1_S348843x256_0_1),
    TRef.binary (.of main_v29 : TRef sig ⟨S348843x256, .i32⟩) main_call4.v0 main_call4.v1 Host.divsi,
    TRef.unary (.of main_v29 : TRef sig ⟨S348843x256, .i32⟩) main_call4.v2 signi,
    TRef.unary (.of main_v30 : TRef sig ⟨S348843x1, .i32⟩) main_call4.v3 signi,
    TRef.unary main_call4.v3 main_call4.v4 (broadcastInDim S348843x256 ![0, 1] bcast_S348843x1_S348843x256_0_1),
    TRef.binary main_call4.v2 main_call4.v4 main_call4.v5 (cmpi .ne),
    TRef.unary (.of main_v30 : TRef sig ⟨S348843x1, .i32⟩) main_call4.v6 (broadcastInDim S348843x256 ![0, 1] bcast_S348843x1_S348843x256_0_1),
    TRef.binary (.of main_v29 : TRef sig ⟨S348843x256, .i32⟩) main_call4.v6 main_call4.v7 Host.remsi,
    TRef.nullary main_call4.c (constantI S_ 32 0#32),
    TRef.unary main_call4.c main_call4.v8 (broadcastInDim S348843x256 ![] bcast_S_S348843x256),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S348843x256 ![] bcast_S_S348843x256),
    TRef.binary main_call4.v1 main_call4.v11 main_call4.v12 subi,
    TRef.ternary main_call4.v10 main_call4.v12 main_call4.v1 main_call4.call0.v0 select,
    nullary main_c_8 (constantI S_ 32 0#32),
    TRef.unary (.of main_c_8 : TRef sig ⟨S_, .i32⟩) main_call5.v0 id,
    TRef.binary (.of main_v31 : TRef sig ⟨S348843x256, .i32⟩) main_call5.v0 main_call5.v1 (fun x v => pad S348843x257 ![0, 1] ![0, 0] ![0, 0] x v pads_S348843x256_S348843x257_000_100 h_S_),
    unary main_v32 main_v33 ((extractStridedSlice S348843x256 ![0, 0] · slices_S348843x257_S348843x256_0_0) : (⟨S348843x257, .i32⟩ : BufTy).Contents (Elt F) → (⟨S348843x256, .i32⟩ : BufTy).Contents (Elt F)),
    nullary main_c_9 (constantI S_ 32 0#32),
    nullary main_c_10 (constantI S_ 32 255#32),
    TRef.unary (.of main_c_9 : TRef sig ⟨S_, .i32⟩) main_call6.v0 id,
    TRef.unary main_call6.v0 main_call6.v1 (broadcastInDim S348843x256 ![] bcast_S_S348843x256),
    TRef.binary main_call6.v1 (.of main_v33 : TRef sig ⟨S348843x256, .i32⟩) main_call6.v2 maxsi,
    TRef.unary (.of main_c_10 : TRef sig ⟨S_, .i32⟩) main_call6.v3 id,
    TRef.unary main_call6.v3 main_call6.v4 (broadcastInDim S348843x256 ![] bcast_S_S348843x256),
    TRef.binary main_call6.v4 main_call6.v2 main_call6.v5 minsi,
    TRef.nullary main_call7.c (constantI S_ 32 0#32),
    TRef.unary main_call7.c main_call7.v0 (broadcastInDim S348843x36 ![] bcast_S_S348843x36),
    TRef.binary (.of main_v3 : TRef sig ⟨S348843x36, .i32⟩) main_call7.v0 main_call7.v1 (cmpi .slt),
    TRef.nullary main_call7.c_0 (constantI S_ 32 256#32),
    TRef.unary main_call7.c_0 main_call7.v2 (broadcastInDim S348843x36 ![] bcast_S_S348843x36),
    TRef.binary (.of main_v3 : TRef sig ⟨S348843x36, .i32⟩) main_call7.v2 main_call7.v3 addi,
    TRef.ternary main_call7.v1 main_call7.v3 (.of main_v3 : TRef sig ⟨S348843x36, .i32⟩) main_call7.v4 select,
    TRef.reshape main_call7.v4 main_call7.v5 rfl shapeCasts_S348843x36_S348843x36x1,
    TRef.nullary main_call7.c_1 (constantI S1 32 255#32),
    TRef.nullary main_call7.c_2 (constantI S_ 32 0#32),
    TRef.unary main_call7.c_2 main_call7.v6 (broadcastInDim S348843x36x1 ![] bcast_S_S348843x36x1),
    TRef.binary main_call7.v5 main_call7.v6 main_call7.v7 (cmpi .sge),
    TRef.unary main_call7.c_1 main_call7.v8 (broadcastInDim S1x1x1 ![2] bcast_S1_S1x1x1_2),
    TRef.unary main_call7.v8 main_call7.v9 (broadcastInDim S348843x36x1 ![0, 1, 2] bcast_S1x1x1_S348843x36x1_0_1_2),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S348843x36x1_S348843x36_d2 h_S_),
    TRef.binary (.of main_v34 : TRef sig ⟨S348843x256, .i32⟩) main_call7.v5 main_call7.v13 (fun x i => Host.gather gather_S348843x256_S348843x36x1_S348843x36_n_1_0_0_1_2_11 x i),
    TRef.nullary main_call7.c_4 (constantI S_ 32 2147483648#32),
    TRef.unary main_call7.c_4 main_call7.v14 (broadcastInDim S348843x36 ![] bcast_S_S348843x36),
    TRef.ternary main_call7.v12 main_call7.v13 main_call7.v14 main_call7.v15 select ]

/-- The last eleven: where the step is zero the tile itself, elsewhere the remapped row (`main_v36` … `main_v39`);
    the rows laid back as an image, written over the channel-first image, channels last again (`main_v40` …
    `main_v44`). -/
abbrev opsFinish : List (HloOp τ sig (Elt F)) :=
  [ nullary main_c_11 (constantI S_ 32 0#32),
    unary main_c_11 main_v36 (broadcastInDim S348843 ![] bcast_S_S348843 : (⟨S_, .i32⟩ : BufTy).Contents (Elt F) → (⟨S348843, .i32⟩ : BufTy).Contents (Elt F)),
    binary main_v23 main_v36 main_v37 (cmpi .eq : (⟨S348843, .i32⟩ : BufTy).Contents (Elt F) → (⟨S348843, .i32⟩ : BufTy).Contents (Elt F) → (⟨S348843, .i1⟩ : BufTy).Contents (Elt F)),
    unary main_v37 main_v38 (broadcastInDim S348843x1 ![0] bcast_S348843_S348843x1_0 : (⟨S348843, .i1⟩ : BufTy).Contents (Elt F) → (⟨S348843x1, .i1⟩ : BufTy).Contents (Elt F)),
    TRef.unary (.of main_v38 : TRef sig ⟨S348843x1, .i1⟩) main_call8.v0 (broadcastInDim S348843x36 ![0, 1] bcast_S348843x1_S348843x36_0_1),
    TRef.ternary main_call8.v0 (.of main_v3 : TRef sig ⟨S348843x36, .i32⟩) (.of main_v35 : TRef sig ⟨S348843x36, .i32⟩) main_call8.v1 select,
    reshape main_v39 main_v40 rfl shapeCasts_S348843x36_S3x341x341x6x6,
    unary main_v40 main_v41 ((transpose S3x341x6x341x6 [0, 1, 3, 2, 4] · transposes_S3x341x341x6x6_S3x341x6x341x6_0_1_3_2_4) : (⟨S3x341x341x6x6, .i32⟩ : BufTy).Contents (Elt F) → (⟨S3x341x6x341x6, .i32⟩ : BufTy).Contents (Elt F)),
    reshape main_v41 main_v42 rfl shapeCasts_S3x341x6x341x6_S3x2046x2046,
    ternary main_v0 main_c main_v42 main_v43 ((fun x i u => Host.scatter scatter_S3x2046x2046_S0_S3x2046x2046_012_n_n_0 (fun _ b => b) x i u) : (⟨S3x2046x2046, .i32⟩ : BufTy).Contents (Elt F) → (⟨S0, .i32⟩ : BufTy).Contents (Elt F) → (⟨S3x2046x2046, .i32⟩ : BufTy).Contents (Elt F) → (⟨S3x2046x2046, .i32⟩ : BufTy).Contents (Elt F)),
    unary main_v43 main_v44 ((transpose S2046x2046x3 [1, 2, 0] · transposes_S3x2046x2046_S2046x2046x3_1_2_0) : (⟨S3x2046x2046, .i32⟩ : BufTy).Contents (Elt F) → (⟨S2046x2046x3, .i32⟩ : BufTy).Contents (Elt F)) ]

/-- @main's 156 operations, in order. -/
abbrev ops : List (HloOp τ sig (Elt F)) :=
  opsTiles ++ (opsSeg ++ (opsHist ++ (opsCumsum ++ (opsMax ++ (opsTakeIdx ++ (opsTakeOk ++ (opsCnt ++ (opsSub ++ (opsFloorDiv ++ (opsRemap ++ opsFinish))))))))))

/-- A line run after another is the concatenation's fold. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

-- 156 binds re-associated: the rewrite under the chain recurses once per statement
set_option maxRecDepth 8192 in
set_option maxHeartbeats 1600000 in
/-- @main is that line: the functions' definitions unfolded at their calls and the records at their fields, and the
    line's concatenation unfolded (`seq_append`), both sides are one chain of steps once sequencing is
    reassociated. -/
theorem main_eq (c : Dev nD) : main (F := F) c = seq ops := by
  simp only [main, fn_cumsum.body, fn_cumsum_0.body, fn_take_along_axis.body, fn_floor_divide.body, fn_where.body,
    fn_floor_divide_1.body, fn_where_2.body, fn_floor_divide_3.body, fn_where_4.body, fn_pad.body, fn_clip.body,
    fn_take_along_axis_5.body, fn_where_6.body, ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsTiles_sub : (opsTiles : List (HloOp τ sig (Elt F))).Forall fun op => op.bufs ⊆ tcRefs τ sig :=
  ⟨nullary_bufs_sub .., unary_bufs_sub .., reshape_bufs_sub .., unary_bufs_sub .., reshape_bufs_sub ..⟩

theorem opsSeg_sub : (opsSeg : List (HloOp τ sig (Elt F))).Forall fun op => op.bufs ⊆ tcRefs τ sig :=
  ⟨nullary_bufs_sub .., unary_bufs_sub .., nullary_bufs_sub .., unary_bufs_sub .., binary_bufs_sub .., unary_bufs_sub ..,
    binary_bufs_sub .., reshape_bufs_sub ..⟩

theorem opsHist_sub : (opsHist : List (HloOp τ sig (Elt F))).Forall fun op => op.bufs ⊆ tcRefs τ sig :=
  ⟨nullary_bufs_sub .., unary_bufs_sub .., nullary_bufs_sub .., unary_bufs_sub .., unary_bufs_sub .., ternary_bufs_sub ..,
    reshape_bufs_sub ..⟩

theorem opsCumsum_sub : (opsCumsum : List (HloOp τ sig (Elt F))).Forall fun op => op.bufs ⊆ tcRefs τ sig :=
  ⟨nullary_bufs_sub .., unary_bufs_sub .., binary_bufs_sub ..⟩

theorem opsMax_sub : (opsMax : List (HloOp τ sig (Elt F))).Forall fun op => op.bufs ⊆ tcRefs τ sig :=
  ⟨nullary_bufs_sub .., binary_bufs_sub .., unary_bufs_sub ..⟩

theorem opsTakeIdx_sub : (opsTakeIdx : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub ..⟩

theorem opsTakeOk_sub : (opsTakeOk : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., binary_bufs_sub .., nullary_bufs_sub .., binary_bufs_sub ..⟩

theorem opsCnt_sub : (opsCnt : List (HloOp τ sig (Elt F))).Forall fun op => op.bufs ⊆ tcRefs τ sig :=
  ⟨binary_bufs_sub .., nullary_bufs_sub .., unary_bufs_sub .., ternary_bufs_sub .., reshape_bufs_sub ..⟩

theorem opsSub_sub : (opsSub : List (HloOp τ sig (Elt F))).Forall fun op => op.bufs ⊆ tcRefs τ sig :=
  ⟨nullary_bufs_sub .., unary_bufs_sub .., binary_bufs_sub .., nullary_bufs_sub ..⟩

theorem opsFloorDiv_sub : (opsFloorDiv : List (HloOp τ sig (Elt F))).Forall fun op => op.bufs ⊆ tcRefs τ sig :=
  ⟨unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

theorem opsRemap_sub : (opsRemap : List (HloOp τ sig (Elt F))).Forall fun op => op.bufs ⊆ tcRefs τ sig :=
  ⟨nullary_bufs_sub .., unary_bufs_sub .., binary_bufs_sub .., unary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub ..⟩

theorem opsFinish_sub : (opsFinish : List (HloOp τ sig (Elt F))).Forall fun op => op.bufs ⊆ tcRefs τ sig :=
  ⟨nullary_bufs_sub .., unary_bufs_sub .., binary_bufs_sub .., unary_bufs_sub .., unary_bufs_sub .., ternary_bufs_sub ..,
    reshape_bufs_sub .., unary_bufs_sub .., reshape_bufs_sub .., ternary_bufs_sub .., unary_bufs_sub ..⟩

/-- Every operation of the line touches TensorCore buffers only: stretch by stretch. -/
theorem ops_sub : (ops : List (HloOp τ sig (Elt F))).Forall fun op => op.bufs ⊆ tcRefs τ sig := by
  rw [List.forall_iff_forall_mem]
  intro op h
  simp only [ops, List.mem_append] at h
  rcases h with h | h | h | h | h | h | h | h | h | h | h | h
  · exact List.forall_iff_forall_mem.mp opsTiles_sub op h
  · exact List.forall_iff_forall_mem.mp opsSeg_sub op h
  · exact List.forall_iff_forall_mem.mp opsHist_sub op h
  · exact List.forall_iff_forall_mem.mp opsCumsum_sub op h
  · exact List.forall_iff_forall_mem.mp opsMax_sub op h
  · exact List.forall_iff_forall_mem.mp opsTakeIdx_sub op h
  · exact List.forall_iff_forall_mem.mp opsTakeOk_sub op h
  · exact List.forall_iff_forall_mem.mp opsCnt_sub op h
  · exact List.forall_iff_forall_mem.mp opsSub_sub op h
  · exact List.forall_iff_forall_mem.mp opsFloorDiv_sub op h
  · exact List.forall_iff_forall_mem.mp opsRemap_sub op h
  · exact List.forall_iff_forall_mem.mp opsFinish_sub op h

/-- Every operation of the line determines its results (none only allocates). -/
theorem ops_fresh : ∀ op ∈ (ops : List (HloOp τ sig (Elt F))), op.fresh = ∅ := by
  intro op h
  simp only [ops, List.mem_append] at h
  rcases h with h | h | h | h | h | h | h | h | h | h | h | h
  all_goals
    repeat (cases h with | head => rfl | tail _ h => ?_)
    exact nomatch h

/-! ## What each stretch leaves

For each stretch, from any contents `W` before it: what its fold leaves at the buffers read later. Reading a fold at
a buffer rewrites each operation's result at its own buffer to its function of the operands and leaves every other
buffer as it was; a callee's operation converts its operands from and its result to their buffers' types, and at
these literal buffers the conversions are the identity. What is left is the specification's stage by unfolding its
name. The reductions, the gather, the scatters and the pad stay folded: the equations never look inside them. -/

/-- The conversions of a callee's operation between its values' types and its buffers' types are the identity. -/
local macro "drop_casts" : tactic => `(tactic| try simp only [TRef.toBuf, TRef.ofBuf, cast_eq])

section Stretches

variable (x : IVec S2046x2046x3 32) (W : Valuation τ sig (Elt F))

/-- Each tile's largest value as a column. -/
abbrev vcol : IVec S348843x1 32 :=
  broadcastInDim S348843x1 ![0] bcast_S348843_S348843x1_0 (Spec.vmax (Spec.tiles x))

/-- The count in each tile's bin of its largest value. -/
abbrev count : IVec S348843 32 := Spec.cnt (Spec.hist (Spec.tiles x)) (Spec.vmax (Spec.tiles x))

/-- The image, the empty index table, the channel-first image and the tiles are in their buffers. -/
def Base : Prop :=
  W (Proc.devRef .tc main_arg0) = x ∧ W (Proc.devRef .tc main_c) = (emptyVec S0 hz_S0 : IVec S0 32)
    ∧ W (Proc.devRef .tc main_v0) = Spec.img x ∧ W (Proc.devRef .tc main_v3) = Spec.tiles x

variable {x W}

attribute [local irreducible] Host.reduce Host.reduceWindow Host.gather Host.scatter pad in
/-- The first stretch puts them there, from the launch contents. -/
theorem tiles_step (V : Valuation τ sig (Elt F)) : Base (V (Proc.devRef .tc main_arg0)) (after opsTiles V) := by
  refine ⟨?_, ?_, ?_, ?_⟩
  · after_results_simp
  · after_results_simp
  · after_results_simp <;> rfl
  · after_results_simp <;> rfl

attribute [local irreducible] Host.reduce Host.reduceWindow Host.gather Host.scatter pad in
/-- The segment ids of the tiles. -/
theorem seg_step (h : Base x W) :
    Base x (after opsSeg W) ∧ after opsSeg W (Proc.devRef .tc main_v10) = Spec.seg (Spec.tiles x) := by
  obtain ⟨ha, hc, h0, h3⟩ := h
  refine ⟨⟨?_, ?_, ?_, ?_⟩, ?_⟩
  · after_results_simp <;> exact ha
  · after_results_simp <;> exact hc
  · after_results_simp <;> exact h0
  · after_results_simp <;> exact h3
  · after_results_simp <;> (rw [h3]; rfl)

attribute [local irreducible] Host.reduce Host.reduceWindow Host.gather Host.scatter pad in
/-- The histogram of the tiles. -/
theorem hist_step (h : Base x W) (h10 : W (Proc.devRef .tc main_v10) = Spec.seg (Spec.tiles x)) :
    Base x (after opsHist W) ∧ after opsHist W (Proc.devRef .tc main_v15) = Spec.hist (Spec.tiles x) := by
  obtain ⟨ha, hc, h0, h3⟩ := h
  refine ⟨⟨?_, ?_, ?_, ?_⟩, ?_⟩
  · after_results_simp <;> exact ha
  · after_results_simp <;> exact hc
  · after_results_simp <;> exact h0
  · after_results_simp <;> exact h3
  · after_results_simp <;> (rw [h10]; rfl)

attribute [local irreducible] Host.reduce Host.reduceWindow Host.gather Host.scatter pad in
/-- The running sum writes only its own three buffers. -/
theorem cumsum_step (h : Base x W) (h15 : W (Proc.devRef .tc main_v15) = Spec.hist (Spec.tiles x)) :
    Base x (after opsCumsum W) ∧ after opsCumsum W (Proc.devRef .tc main_v15) = Spec.hist (Spec.tiles x) := by
  obtain ⟨ha, hc, h0, h3⟩ := h
  refine ⟨⟨?_, ?_, ?_, ?_⟩, ?_⟩
  · after_results_simp <;> exact ha
  · after_results_simp <;> exact hc
  · after_results_simp <;> exact h0
  · after_results_simp <;> exact h3
  · after_results_simp <;> exact h15

attribute [local irreducible] Host.reduce Host.reduceWindow Host.gather Host.scatter pad in
/-- The largest values as a column. -/
theorem max_step (h : Base x W) (h15 : W (Proc.devRef .tc main_v15) = Spec.hist (Spec.tiles x)) :
    Base x (after opsMax W) ∧ after opsMax W (Proc.devRef .tc main_v15) = Spec.hist (Spec.tiles x)
      ∧ after opsMax W (Proc.devRef .tc main_v18) = vcol x := by
  obtain ⟨ha, hc, h0, h3⟩ := h
  refine ⟨⟨?_, ?_, ?_, ?_⟩, ?_, ?_⟩
  · after_results_simp <;> exact ha
  · after_results_simp <;> exact hc
  · after_results_simp <;> exact h0
  · after_results_simp <;> exact h3
  · after_results_simp <;> exact h15
  · after_results_simp <;> (rw [h3]; rfl)

attribute [local irreducible] Host.reduce Host.reduceWindow Host.gather Host.scatter pad in
/-- The bin numbers made ready for the gather. -/
theorem takeIdx_step (h : Base x W) (h15 : W (Proc.devRef .tc main_v15) = Spec.hist (Spec.tiles x))
    (h18 : W (Proc.devRef .tc main_v18) = vcol x) :
    Base x (after opsTakeIdx W) ∧ after opsTakeIdx W (Proc.devRef .tc main_v15) = Spec.hist (Spec.tiles x)
      ∧ after opsTakeIdx W (Proc.devRef .tc main_call1_v5) = Spec.takeIdx (vcol x) := by
  obtain ⟨ha, hc, h0, h3⟩ := h
  refine ⟨⟨?_, ?_, ?_, ?_⟩, ?_, ?_⟩
  · after_results_simp <;> exact ha
  · after_results_simp <;> exact hc
  · after_results_simp <;> exact h0
  · after_results_simp <;> exact h3
  · after_results_simp <;> exact h15
  · after_results_simp <;> (drop_casts; rw [h18]; rfl)

attribute [local irreducible] Host.reduce Host.reduceWindow Host.gather Host.scatter pad in
/-- Whether they are bin numbers. -/
theorem takeOk_step (h : Base x W) (h15 : W (Proc.devRef .tc main_v15) = Spec.hist (Spec.tiles x))
    (h5 : W (Proc.devRef .tc main_call1_v5) = Spec.takeIdx (vcol x)) :
    Base x (after opsTakeOk W) ∧ after opsTakeOk W (Proc.devRef .tc main_v15) = Spec.hist (Spec.tiles x)
      ∧ after opsTakeOk W (Proc.devRef .tc main_call1_v5) = Spec.takeIdx (vcol x)
      ∧ after opsTakeOk W (Proc.devRef .tc main_call1_v12) = Spec.takeOk (Spec.takeIdx (vcol x)) := by
  obtain ⟨ha, hc, h0, h3⟩ := h
  refine ⟨⟨?_, ?_, ?_, ?_⟩, ?_, ?_, ?_⟩
  · after_results_simp <;> exact ha
  · after_results_simp <;> exact hc
  · after_results_simp <;> exact h0
  · after_results_simp <;> exact h3
  · after_results_simp <;> exact h15
  · after_results_simp <;> exact h5
  · after_results_simp <;> (drop_casts; rw [h5]; rfl)

attribute [local irreducible] Host.reduce Host.reduceWindow Host.gather Host.scatter pad in
/-- The count in each tile's bin of its largest value. -/
theorem cnt_step (h : Base x W) (h15 : W (Proc.devRef .tc main_v15) = Spec.hist (Spec.tiles x))
    (h5 : W (Proc.devRef .tc main_call1_v5) = Spec.takeIdx (vcol x))
    (h12 : W (Proc.devRef .tc main_call1_v12) = Spec.takeOk (Spec.takeIdx (vcol x))) :
    Base x (after opsCnt W) ∧ after opsCnt W (Proc.devRef .tc main_v20) = count x := by
  obtain ⟨ha, hc, h0, h3⟩ := h
  refine ⟨⟨?_, ?_, ?_, ?_⟩, ?_⟩
  · after_results_simp <;> exact ha
  · after_results_simp <;> exact hc
  · after_results_simp <;> exact h0
  · after_results_simp <;> exact h3
  · after_results_simp <;> (drop_casts; rw [h15, h5, h12]; rfl)

attribute [local irreducible] Host.reduce Host.reduceWindow Host.gather Host.scatter pad in
/-- Thirty-six less the count, and the divisor. -/
theorem sub_step (h : Base x W) (h20 : W (Proc.devRef .tc main_v20) = count x) :
    Base x (after opsSub W)
      ∧ after opsSub W (Proc.devRef .tc main_v22)
          = subi (broadcastInDim S348843 ![] bcast_S_S348843 (constantI S_ 32 36#32)) (count x)
      ∧ after opsSub W (Proc.devRef .tc main_c_5) = (constantI S_ 32 255#32 : IVec S_ 32) := by
  obtain ⟨ha, hc, h0, h3⟩ := h
  refine ⟨⟨?_, ?_, ?_, ?_⟩, ?_, ?_⟩
  · after_results_simp <;> exact ha
  · after_results_simp <;> exact hc
  · after_results_simp <;> exact h0
  · after_results_simp <;> exact h3
  · after_results_simp <;> rw [h20]
  · after_results_simp <;> rfl

attribute [local irreducible] Host.reduce Host.reduceWindow Host.gather Host.scatter pad in
/-- The step. -/
theorem floorDiv_step (h : Base x W)
    (h22 : W (Proc.devRef .tc main_v22)
      = subi (broadcastInDim S348843 ![] bcast_S_S348843 (constantI S_ 32 36#32)) (count x))
    (h255 : W (Proc.devRef .tc main_c_5) = (constantI S_ 32 255#32 : IVec S_ 32)) :
    Base x (after opsFloorDiv W) ∧ after opsFloorDiv W (Proc.devRef .tc main_v23) = Spec.step (count x) := by
  obtain ⟨ha, hc, h0, h3⟩ := h
  refine ⟨⟨?_, ?_, ?_, ?_⟩, ?_⟩
  · after_results_simp <;> exact ha
  · after_results_simp <;> exact hc
  · after_results_simp <;> exact h0
  · after_results_simp <;> exact h3
  · after_results_simp <;> (drop_casts; rw [h22, h255]; rfl)

attribute [local irreducible] Host.reduce Host.reduceWindow Host.gather Host.scatter pad in
/-- The remapped rows' stretch writes none of them. -/
theorem remap_step (h : Base x W) (h23 : W (Proc.devRef .tc main_v23) = Spec.step (count x)) :
    Base x (after opsRemap W) ∧ after opsRemap W (Proc.devRef .tc main_v23) = Spec.step (count x) := by
  obtain ⟨ha, hc, h0, h3⟩ := h
  refine ⟨⟨?_, ?_, ?_, ?_⟩, ?_⟩
  · after_results_simp <;> exact ha
  · after_results_simp <;> exact hc
  · after_results_simp <;> exact h0
  · after_results_simp <;> exact h3
  · after_results_simp <;> exact h23

attribute [local irreducible] Host.reduce Host.reduceWindow Host.gather Host.scatter pad in
/-- The result, with the remapped rows as the last stretch finds them; the image is where it was. -/
theorem finish_step (h : Base x W) (h23 : W (Proc.devRef .tc main_v23) = Spec.step (count x)) :
    after opsFinish W (Proc.devRef .tc main_v44) = Spec.out x (W (Proc.devRef .tc main_v35))
      ∧ after opsFinish W (Proc.devRef .tc main_arg0) = x := by
  obtain ⟨ha, hc, h0, h3⟩ := h
  refine ⟨?_, ?_⟩
  · after_results_simp <;> (drop_casts; rw [h0, hc, h3, h23]; rfl)
  · after_results_simp <;> exact ha

end Stretches

/-! ## The whole line -/

/-- The contents when the last stretch begins. -/
abbrev beforeFinish (V : Valuation τ sig (Elt F)) : Valuation τ sig (Elt F) :=
  after opsRemap (after opsFloorDiv (after opsSub (after opsCnt (after opsTakeOk (after opsTakeIdx (after opsMax
    (after opsCumsum (after opsHist (after opsSeg (after opsTiles V))))))))))

/-- After the whole line the result buffer is `Spec.out` of the image and of what the remapped rows' stretch left in
    `main_v35`, and the image is where it was: the stretches' facts chained. -/
theorem out_eq (V : Valuation τ sig (Elt F)) :
    after ops V (Proc.devRef .tc main_v44)
        = Spec.out (V (Proc.devRef .tc main_arg0)) (beforeFinish V (Proc.devRef .tc main_v35))
      ∧ after ops V (Proc.devRef .tc main_arg0) = V (Proc.devRef .tc main_arg0) := by
  simp only [ops, after_append]
  obtain ⟨b2, s10⟩ := seg_step (tiles_step V)
  obtain ⟨b3, s15⟩ := hist_step b2 s10
  obtain ⟨b4, s15⟩ := cumsum_step b3 s15
  obtain ⟨b5, s15, s18⟩ := max_step b4 s15
  obtain ⟨b6, s15, s5⟩ := takeIdx_step b5 s15 s18
  obtain ⟨b7, s15, s5, s12⟩ := takeOk_step b6 s15 s5
  obtain ⟨b8, s20⟩ := cnt_step b7 s15 s5 s12
  obtain ⟨b9, s22, s255⟩ := sub_step b8 s20
  obtain ⟨b10, s23⟩ := floorDiv_step b9 s22 s255
  obtain ⟨b11, s23⟩ := remap_step b10 s23
  exact finish_step b11 s23

/-- On the device, from any memory with zero counters: every weakly fair execution of @main terminates, with the
    result buffer at `Spec.out` of the image and of some remapped rows, and the image unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (∃ rm : IVec S348843x36 32, r.2.mem ((c.tc : Thread nD τ).loc main_v44)
          = Spec.out (m ((c.tc : Thread nD τ).loc main_arg0)) rm)
      ∧ r.2.mem ((c.tc : Thread nD τ).loc main_arg0) = m ((c.tc : Thread nD τ).loc main_arg0)) :=
  (θ_run defs _ _).mono
    (fun _ h c => ⟨⟨_, (h c main_v44).trans (out_eq (launchContents m c)).1⟩,
      (h c main_arg0).trans (out_eq (launchContents m c)).2⟩)
    (run_seq scopedRefs_eq scopedSems_eq defs main (fun _ => ops) main_eq (fun _ => ops_sub) m ρ
      (fun _ => ops_fresh))

end Cert.ReferenceIdeal.Hand

end
-- ==== Proof.RefPre.lean ====
/-
  The precondition read back: every pixel is a byte.

  The precondition is the conjunction over all pixels of `0 ≤ pic` and `pic ≤ 255`, compared as signed words. A
  word that is at least 0 and at most 255 as a signed number has its sign bit clear, so as an unsigned number it
  is that same number: at most 255.
-/
import proofs.«407464_j39436389711988_3_alg».proof.Pre_any_inputs
import proofs.«407464_j39436389711988_3_alg».proof.Proof.Gen.Pre_any_inputs
import proofs.«407464_j39436389711988_3_alg».proof.Proof.RefSpec
import Idealize.ShloMosaic.Lib.ReduceAll
import Idealize.ShloMosaic.Lib.StableHlo.Predicate

noncomputable section

namespace Cert.ReferenceIdeal.Spec

open Idealize.ShloMosaic

/-- A signed word between 0 and 255 is at most 255 as an unsigned number. -/
theorem toNat_le_of_cmp (a : BitVec 32) (h0 : IntOp.cmpi .sge a 0#32 = 1#1) (h1 : IntOp.cmpi .sle a 255#32 = 1#1) :
    a.toNat ≤ 255 := by
  simp only [IntOp.cmpi, StableHlo.Predicate.ofBool_eq_one_iff, BitVec.sle, decide_eq_true_eq] at h0 h1
  have hc := BitVec.toInt_eq_toNat_cond a
  have z : (0#32 : BitVec 32).toInt = 0 := by decide
  have b : (255#32 : BitVec 32).toInt = 255 := by decide
  rw [z] at h0; rw [b] at h1
  split at hc <;> omega

/-- Under the precondition every pixel is a byte. -/
theorem byte_of_pre {F : FTy → Type} [FloatOps F] [Cert.Pre_any_inputs.Facts]
    (x : IVec Cert.Pre_any_inputs.S2046x2046x3 32)
    (h : Cert.Pre_any_inputs.fn (F := F) x = fun _ => 1#1) : ∀ i, (x i).toNat ≤ 255 := by
  intro i
  have hi := congrFun h (fun d => d.elim0)
  dsimp only [Cert.Pre_any_inputs.fn] at hi
  haveI : Subsingleton Cert.Pre_any_inputs.S_.Idx := ⟨fun a b => funext fun d => d.elim0⟩
  have e := Host.reduce_andi_all _ _ _ _ _ hi i
  obtain ⟨e0, e1⟩ := IntOp.andi_eq_one.1 e
  exact toNat_le_of_cmp (x i) e0 e1

end Cert.ReferenceIdeal.Spec

end
-- ==== Proof.LibScatter.lean ====
/-
  A host scatter read at one index.

  `Host.scatter d f x idx upd` folds over the update positions in row-major order, each replacing the element at
  its result index by `f` of that element and the update. Read at ONE index `i'` the fold only ever changes the
  value at the positions whose result index is `i'`: it is the fold, over the same positions in the same order,
  that applies `f` to the running value exactly there, started from `x i'`.
-/
import Idealize.ShloMosaic.PureOps.ShapeOps

namespace Cert.LibScatter

open Idealize.ShloMosaic

/-- One step of the scatter's fold, read at `i'`: the running value at `i'` changes only if the position's result
    index is `i'`. -/
theorem step_apply {α : Type} {s si u : Shape} {w : Nat} (d : ScatterDims s si u) (f : α → α → α)
    (r : s.Idx → α) (idx : IVec si w) (upd : u.Idx → α) (n : Fin u.numel) (i' : s.Idx) :
    (match d.resultIdx? (u.rowMajor.symm n) idx with
      | some i => fun i'' => if i'' = i then f (r i) (upd (u.rowMajor.symm n)) else r i''
      | none => r) i'
    = if d.resultIdx? (u.rowMajor.symm n) idx = some i' then f (r i') (upd (u.rowMajor.symm n)) else r i' := by
  cases h : d.resultIdx? (u.rowMajor.symm n) idx with
  | none => simp
  | some i =>
    by_cases hi : i' = i
    · subst hi; simp
    · have hne : ¬ (some i = some i') := fun e => hi (Option.some.inj e).symm
      simp [hi, hne]

/-- The scatter at `i'` as a fold of values. -/
theorem scatter_apply {α : Type} {s si u : Shape} {w : Nat} (d : ScatterDims s si u) (f : α → α → α)
    (x : s.Idx → α) (idx : IVec si w) (upd : u.Idx → α) (i' : s.Idx) :
    Host.scatter d f x idx upd i'
      = (List.finRange u.numel).foldl
          (fun a n => if d.resultIdx? (u.rowMajor.symm n) idx = some i' then f a (upd (u.rowMajor.symm n)) else a)
          (x i') := by
  unfold Host.scatter
  generalize List.finRange u.numel = l
  induction l generalizing x with
  | nil => rfl
  | cons n l ih =>
    simp only [List.foldl_cons]
    rw [ih]
    congr 1
    exact step_apply d f x idx upd n i'

end Cert.LibScatter
-- ==== Proof.RefHist.lean ====
/-
  Every bin of the tile histograms is at most 36 when the tiles hold bytes.

  The histogram is a scatter that adds 1 into zeros at position `seg t n = 256·(n / 36) + t (n / 36, n % 36)` for
  every pixel `n`. Read at one position, such a scatter is the fold that adds 1 for every pixel landing there, so
  the entry is the number of those pixels (as a 32-bit word; the number is small, so nothing wraps). A position
  `256·k + b` with `b < 256` can only be the id of a pixel with `n / 36 = k`, because values are below 256 and
  the ids stay below 2^31; and at most 36 numbers have quotient `k` by 36.
-/
import Idealize.ShloMosaic.Lib.ValueIdx
import Idealize.ShloMosaic.Lib.Pipeline.Value
import proofs.«407464_j39436389711988_3_alg».proof.Proof.RefSpec
import proofs.«407464_j39436389711988_3_alg».proof.Proof.LibScatter

namespace Cert.ReferenceIdeal.Spec

open Idealize.ShloMosaic Cert.ReferenceIdeal Idealize.ShloMosaic.ValueIdx

variable [Facts]
open Facts₀ Facts

/-- Adding one, in wrapping 32-bit arithmetic, for every member of a list that satisfies `p` adds the number of
    such members. -/
theorem foldl_addi_one {β : Type} (p : β → Prop) [inst : DecidablePred p] (l : List β) (a : BitVec 32) :
    l.foldl (fun a n => if p n then IntOp.addi a 1#32 else a) a
      = a + BitVec.ofNat 32 (l.countP fun n => decide (p n)) := by
  induction l generalizing a with
  | nil => simp
  | cons x l ih =>
    rw [List.foldl_cons, ih, List.countP_cons]
    by_cases h : p x
    · rw [if_pos h, if_pos (by simpa using h)]
      show a + 1#32 + _ = _
      rw [BitVec.ofNat_add, BitVec.add_assoc, BitVec.add_comm (BitVec.ofNat 32 1)]
    · rw [if_neg h, if_neg (by simpa using h), Nat.add_zero]

/-- Among the numbers below `N`, at most 36 have a given quotient by 36. -/
theorem countP_div_le (N k : Nat) (p : Fin N → Bool) (hp : ∀ n, p n = true → n.val / 36 = k) :
    (List.finRange N).countP p ≤ 36 := by
  rw [List.countP_eq_length_filter]
  have hnd : (((List.finRange N).filter p).map Fin.val).Nodup :=
    ((List.nodup_finRange N).filter _).map Fin.val_injective
  have hsub : ((List.finRange N).filter p).map Fin.val ⊆ List.range' (36 * k) 36 := by
    intro m hm
    obtain ⟨n, hn, rfl⟩ := List.mem_map.1 hm
    have := hp n (List.mem_filter.1 hn).2
    rw [List.mem_range'_1]; omega
  have := (hnd.subperm hsub).length_le
  simpa using this

/-- The segment id of pixel `n`: 256 times its tile's number `n / 36`, plus the pixel's value. -/
theorem seg_apply (t : IVec S348843x36 32) (n : S12558348.Idx) (h : (n 0).val < 12558348 := (n 0).isLt) :
    seg t n = BitVec.ofNat 32 ((n 0).val / 36) * 256#32
      + t (ix2 ⟨(n 0).val / 36, by omega⟩ ⟨(n 0).val % 36, Nat.mod_lt _ (by decide)⟩) := by
  unfold seg
  rw [shapeCast_apply _ _ n (ix2 ⟨(n 0).val / 36, by omega⟩ ⟨(n 0).val % 36, Nat.mod_lt _ (by decide)⟩) (by
    rw [Shape.rowMajor_val_two, Shape.rowMajor_val_one]
    show (n 0).val / 36 * 36 + (n 0).val % 36 = (n 0).val
    omega)]
  rfl

/-- Where an update of the histogram's scatter lands, the start index read signed off the indices is the
    landing position: the one operand axis is inserted, so the window adds nothing. -/
theorem resultIdx_start (idx : IVec S12558348x1 32) (j : S12558348.Idx) (i' : S89303808.Idx)
    (h : scatter_S89303808_S12558348x1_S12558348_n_0_0_1.resultIdx? j idx = some i') :
    (idx (ix2 (j 0) 0)).toInt = ((i' 0).val : Int) := by
  unfold ScatterDims.resultIdx? at h
  split at h
  · rename_i hall
    have hv : (scatter_S89303808_S12558348x1_S12558348_n_0_0_1.start j idx 0
        + (scatter_S89303808_S12558348x1_S12558348_n_0_0_1.window j 0 : Nat)).toNat = (i' 0).val :=
      congrArg Fin.val (congrFun (Option.some.inj h) 0)
    have h0 := (hall 0).1
    have hw : scatter_S89303808_S12558348x1_S12558348_n_0_0_1.window j 0 = 0 := by
      unfold ScatterDims.window
      rw [dif_neg (by show (0 : Fin 1) ∉ Shape.kept S89303808 [0]; decide)]
    have hs : scatter_S89303808_S12558348x1_S12558348_n_0_0_1.start j idx 0 = (idx (ix2 (j 0) 0)).toInt := by
      unfold ScatterDims.start
      rw [dif_pos (by show (0 : Fin 1) ∈ [(0 : Fin 1)]; decide)]
      refine congrArg (fun k => (idx k).toInt) (funext fun b => Fin.ext ?_)
      match b with
      | ⟨0, _⟩ =>
        unfold ScatterDims.siIdx
        rw [dif_neg (by show ¬ (0 : Nat) = 1; decide)]
        unfold ScatterDims.siCoord
        show (j _).val = (j 0).val
        exact congrArg (fun a => (j a).val) (Subsingleton.elim _ _)
      | ⟨1, _⟩ =>
        unfold ScatterDims.siIdx
        rw [dif_pos (by show (1 : Nat) = 1; rfl)]
        rfl
    rw [hw] at hv h0
    rw [← hs]
    omega
  · exact absurd h (by simp)

/-- Every bin of every tile's histogram is at most 36: bin `b` of tile `k` sits at flat position `256·k + b`, only
    pixels of tile `k` have a segment id there (values are below 256 and the ids do not wrap), and a tile has 36
    pixels. -/
theorem hist_le (t : IVec S348843x36 32) (ht : Byte t) : ∀ j, (hist t j).toNat ≤ 36 := by
  intro j
  have hj0 : (j 0).val < 348843 := (j 0).isLt
  have hj1 : (j 1).val < 256 := (j 1).isLt
  unfold hist
  rw [shapeCast_apply _ _ j (ix1 ⟨(j 0).val * 256 + (j 1).val, by omega⟩) (by
    rw [Shape.rowMajor_val_one, Shape.rowMajor_val_two]; rfl)]
  rw [Cert.LibScatter.scatter_apply]
  have key := foldl_addi_one
    (fun n : Fin S12558348.numel =>
      scatter_S89303808_S12558348x1_S12558348_n_0_0_1.resultIdx? (S12558348.rowMajor.symm n)
        (broadcastInDim S12558348x1 ![0] bcast_S12558348_S12558348x1_0 (seg t))
        = some (ix1 ⟨(j 0).val * 256 + (j 1).val, by omega⟩))
    (List.finRange S12558348.numel) 0#32
  refine le_trans (le_of_eq (congrArg BitVec.toNat key)) ?_
  rw [BitVec.zero_add, BitVec.toNat_ofNat]
  refine le_trans (Nat.mod_le _ _) (countP_div_le _ (j 0).val _ ?_)
  intro n hn
  have hst := resultIdx_start _ _ _ (of_decide_eq_true hn)
  have hm : ((S12558348.rowMajor.symm n) 0).val = n.val := by
    rw [← Shape.rowMajor_val_one, Equiv.apply_symm_apply]
  have hlt : ((S12558348.rowMajor.symm n) 0).val < 12558348 := ((S12558348.rowMajor.symm n) 0).isLt
  rw [broadcastInDim_apply _ _ _ _ (S12558348.rowMajor.symm n) (fun a => match a with | ⟨0, _⟩ => rfl),
    seg_apply] at hst
  have hv := ht (ix2 ⟨((S12558348.rowMajor.symm n) 0).val / 36, by omega⟩
    ⟨((S12558348.rowMajor.symm n) 0).val % 36, Nat.mod_lt _ (by decide)⟩)
  rw [BitVec.toInt_eq_toNat_of_lt (by
    rw [BitVec.toNat_add, BitVec.toNat_mul, BitVec.toNat_ofNat]
    show 2 * ((((S12558348.rowMajor.symm n) 0).val / 36 % 2 ^ 32 * 256 % 2 ^ 32 + _) % 2 ^ 32) < 2 ^ 32
    omega)] at hst
  rw [BitVec.toNat_add, BitVec.toNat_mul, BitVec.toNat_ofNat] at hst
  have hi : ((ix1 (⟨(j 0).val * 256 + (j 1).val, by omega⟩ : Fin 89303808) : S89303808.Idx) 0).val
      = (j 0).val * 256 + (j 1).val := rfl
  rw [hi] at hst
  rw [← hm]
  have h256 : (256#32).toNat = 256 := rfl
  rw [h256] at hst
  omega

end Cert.ReferenceIdeal.Spec
-- ==== Proof.RefStep.lean ====
/-
  The largest value of a tile of bytes is a byte, and `step` is zero when every histogram bin is at most 36.

  `vmax` is a signed maximum over a row of 36 entries, started from the least integer. A maximum of two words is one
  of the two, and the maximum of a byte and the least integer is the byte; so a fold of the maximum over a nonempty
  family of bytes is a byte (`vmax_byte`).

  `cnt h v` reads, in each row, the bin of `h` that `v` names. For a byte `v` the index is not negative, so it is
  passed on unchanged, and it lies in 0‥255, so the range test is all ones and the choice takes the gathered entry;
  that entry is some entry of `h`, hence at most 36 (`cnt_le`). Then `a = 36 − cnt` lies in 0‥36, its truncated
  quotient by 255 is 0, and the rounding correction does not apply: for `a = 0` the remainder is zero, and for
  `1 ≤ a ≤ 36` the signs of `a` and 255 agree. So `step (cnt h v)` is zero everywhere (`step_zero`).
-/
import proofs.«407464_j39436389711988_3_alg».proof.Proof.RefSpec
import Idealize.ShloMosaic.PureOps.Reduce
import Idealize.ShloMosaic.Lib.ValueIdx

noncomputable section

namespace Cert.ReferenceIdeal.Spec

open Idealize.ShloMosaic Cert.ReferenceIdeal

/-! ### Facts about one word -/

/-- The signed maximum of two words is one of them. -/
private theorem maxsi_mem (x y : BitVec 32) : IntOp.maxsi x y = x ∨ IntOp.maxsi x y = y := by
  unfold IntOp.maxsi
  split
  · exact Or.inl rfl
  · exact Or.inr rfl

/-- A byte read signed is the same number. -/
private theorem byte_toInt (c : BitVec 32) (hc : c.toNat ≤ 255) : c.toInt = (c.toNat : Int) := by
  rw [BitVec.toInt_eq_toNat_cond, if_pos (by omega)]

/-- The least integer lies below every byte. -/
private theorem maxsi_least (x : BitVec 32) (hx : x.toNat ≤ 255) : IntOp.maxsi x 2147483648#32 = x := by
  unfold IntOp.maxsi
  rw [if_pos]
  rw [BitVec.slt_eq_decide, decide_eq_true_eq, byte_toInt x hx]
  have : (2147483648#32 : BitVec 32).toInt = -2147483648 := by decide
  rw [this]; omega

/-- The maximum, from the least integer, over a nonempty family of bytes is a byte: over one member it is that
    member, and each further member either replaces the maximum or leaves it. -/
private theorem fold_maxsi_byte {ι : Type} (f : ι → BitVec 32) (hf : ∀ i, (f i).toNat ≤ 255) (s : Finset ι)
    (hs : s.Nonempty) : (s.fold IntOp.maxsi 2147483648#32 f).toNat ≤ 255 := by
  induction hs using Finset.Nonempty.cons_induction with
  | singleton a =>
    rw [Finset.fold_singleton, maxsi_least _ (hf a)]; exact hf a
  | cons a s ha hs ih =>
    rw [Finset.fold_cons]
    rcases maxsi_mem (f a) (s.fold IntOp.maxsi 2147483648#32 f) with e | e
    · rw [e]; exact hf a
    · rw [e]; exact ih

/-- A byte is not negative. -/
private theorem slt_zero_byte (c : BitVec 32) (hc : c.toNat ≤ 255) : IntOp.cmpi .slt c 0#32 = 0#1 := by
  unfold IntOp.cmpi
  simp only [BitVec.slt_eq_decide, byte_toInt c hc]
  have : (0#32 : BitVec 32).toInt = 0 := by decide
  rw [this, decide_eq_false (by omega)]; rfl

/-- A byte passes the test `0 ≤ c ∧ c ≤ 255`. -/
private theorem ok_byte (c : BitVec 32) (hc : c.toNat ≤ 255) :
    IntOp.andi (IntOp.cmpi .sge c 0#32) (IntOp.cmpi .sle c 255#32) = 1#1 := by
  unfold IntOp.cmpi
  simp only [BitVec.sle_eq_decide, byte_toInt c hc]
  have h0 : (0#32 : BitVec 32).toInt = 0 := by decide
  have h255 : (255#32 : BitVec 32).toInt = 255 := by decide
  rw [h0, h255, decide_eq_true (by omega), decide_eq_true (by omega)]; rfl

/-- A conjunction of ones, started from one, is one. -/
private theorem foldl_andi_one {ι : Type} (X : ι → BitVec 1) (hX : ∀ i, X i = 1#1) (l : List ι) :
    l.foldl (fun r i => IntOp.andi r (X i)) 1#1 = 1#1 := by
  induction l with
  | nil => rfl
  | cons a l ih =>
    rw [List.foldl_cons, hX a]
    have : IntOp.andi 1#1 1#1 = 1#1 := by decide
    rw [this]; exact ih

/-- Division of one word by 255 rounded towards minus infinity: what `floorDiv` computes at each entry. -/
private def fd (a : BitVec 32) : BitVec 32 :=
  Scalar.select
    (IntOp.andi
      (IntOp.cmpi .ne ((if a = 0 then 0 else if a.msb then -1 else 1) : BitVec 32)
        ((if (255#32 : BitVec 32) = 0 then 0 else if (255#32 : BitVec 32).msb then -1 else 1) : BitVec 32))
      (IntOp.cmpi .ne (IntOp.remsi .host a 255#32) 0#32))
    (IntOp.subi (IntOp.divsi .host a 255#32) 1#32)
    (IntOp.divsi .host a 255#32)

/-- For each of the 37 values `n = 0, …, 36`, `36 − n` divided by 255 and rounded down is 0. -/
private theorem fd_fin : ∀ n : Fin 37, fd (IntOp.subi 36#32 (BitVec.ofNat 32 n.val)) = 0#32 := by decide +kernel

private theorem fd_zero (c : BitVec 32) (hc : c.toNat ≤ 36) : fd (IntOp.subi 36#32 c) = 0#32 := by
  have := fd_fin ⟨c.toNat, by omega⟩
  simpa using this

variable [Facts]
open Facts₀ Facts

/-! ### The stages -/

private theorem reduces_36 : S348843x36.Reduces [1] S348843 := by decide

/-- Each tile's largest value is a byte when the tile's values are: the reduction along the row is the fold of the
    maximum over the row's 36 positions. -/
theorem vmax_byte (t : IVec S348843x36 32) (ht : Byte t) : ∀ k, (vmax t k).toNat ≤ 255 := by
  intro k
  unfold vmax
  rw [Host.reduce_eq_fold_single IntOp.maxsi t _ reducesTo_S348843x36_S348843_d1 reduces_36 h_S_ k]
  exact fold_maxsi_byte _ (fun i => ht _) _ ⟨⟨0, by decide⟩, Finset.mem_univ _⟩

/-- A column of bytes is passed on unchanged, so stays a column of bytes. -/
theorem takeIdx_byte (i : IVec S348843x1 32) (hi : ∀ j, (i j).toNat ≤ 255) (j : S348843x1x1.Idx) :
    (takeIdx i j).toNat ≤ 255 := by
  unfold takeIdx shapeCast
  show (Scalar.select (IntOp.cmpi .slt (i _) 0#32) (IntOp.addi (i _) 256#32) (i _)).toNat ≤ 255
  rw [slt_zero_byte _ (hi _)]
  exact hi _

/-- The range test of a column of bytes is all ones: it is a conjunction, over the entries of a row, of tests that
    each hold. -/
theorem takeOk_one (i5 : IVec S348843x1x1 32) (h5 : ∀ j, (i5 j).toNat ≤ 255) (k : S348843x1.Idx) :
    takeOk i5 k = 1#1 := by
  unfold takeOk
  rw [Host.reduce_eq_foldl]
  exact foldl_andi_one _ (fun i => ok_byte (i5 i) (h5 i)) _

/-- The count read at a byte is an entry of `h`, so at most 36 when every entry is. -/
theorem cnt_le (h : IVec S348843x256 32) (v : IVec S348843 32) (hh : ∀ j, (h j).toNat ≤ 36)
    (hv : ∀ k, (v k).toNat ≤ 255) (k : S348843.Idx) : (cnt h v k).toNat ≤ 36 := by
  have hidx := takeIdx_byte (broadcastInDim S348843x1 ![0] bcast_S348843_S348843x1_0 v) (fun j => hv _)
  unfold cnt shapeCast
  show (Scalar.select (takeOk _ _) (Host.gather _ h _ _) _).toNat ≤ 36
  rw [takeOk_one _ hidx]
  exact hh _

/-- With every bin at most 36 and every `v` a byte, `(36 − cnt) div 255` rounded down is zero at every tile. -/
theorem step_zero (h : IVec S348843x256 32) (v : IVec S348843 32) (hh : ∀ j, (h j).toNat ≤ 36)
    (hv : ∀ k, (v k).toNat ≤ 255) : ∀ k, step (cnt h v) k = 0#32 := by
  intro k
  show fd (IntOp.subi 36#32 (cnt h v k)) = 0#32
  exact fd_zero _ (cnt_le h v hh hv k)

end Cert.ReferenceIdeal.Spec

end
-- ==== Proof.RefFinish.lean ====
/-
  Where `step` is zero everywhere, laying the kept tiles back gives the image back.

  Three things are shown and then put together. (1) With `step = 0` at every tile the comparison is all ones, its
  two broadcasts keep it so, and the choice returns the tile rows themselves. (2) A scatter with no scattered axis,
  whose window is the whole operand and whose body returns the update, writes every element: read at an index it is
  the update there. (3) The layout maps cancel in pairs: a reshape and the reshape back, the transposition of the
  two middle axes of a rank-5 array taken twice, and moving the channel axis first and then last again.
-/
import proofs.«407464_j39436389711988_3_alg».proof.Proof.RefSpec
import proofs.«407464_j39436389711988_3_alg».proof.Proof.LibScatter
import Idealize.ShloMosaic.Lib.Pipeline.Value

namespace Cert.ReferenceIdeal.Spec

open Idealize.ShloMosaic Cert.ReferenceIdeal

/-! ### Layout maps that cancel -/

section Layout

variable {α : Type}

/-- Reshaping to another shape and back is the identity: both reshapes keep the row-major position. -/
theorem shapeCast_shapeCast_self {s t : Shape} (y : s.Idx → α) (h : s.ShapeCasts t) (h' : t.ShapeCasts s) :
    shapeCast s (shapeCast t y h) h' = y := by
  funext j
  unfold shapeCast
  rw [Shape.reshapeEquiv_reshapeEquiv, Shape.reshapeEquiv_self]

/-- Exchanging the two middle axes of a rank-5 array twice is the identity. -/
theorem transpose_mid_twice (z : S3x341x6x341x6.Idx → α)
    (h : S3x341x6x341x6.Transposes [0, 1, 3, 2, 4] S3x341x341x6x6)
    (h' : S3x341x341x6x6.Transposes [0, 1, 3, 2, 4] S3x341x6x341x6) :
    transpose S3x341x6x341x6 [0, 1, 3, 2, 4] (transpose S3x341x341x6x6 [0, 1, 3, 2, 4] z h) h' = z := by
  funext j
  refine (transpose_apply _ _ h' j
    (fun a => match a with | ⟨0, _⟩ => j 0 | ⟨1, _⟩ => j 1 | ⟨2, _⟩ => j 3 | ⟨3, _⟩ => j 2 | ⟨4, _⟩ => j 4)
    (fun b => match b with | ⟨0, _⟩ => rfl | ⟨1, _⟩ => rfl | ⟨2, _⟩ => rfl | ⟨3, _⟩ => rfl | ⟨4, _⟩ => rfl)).trans ?_
  exact transpose_apply _ _ h _ j
    (fun b => match b with | ⟨0, _⟩ => rfl | ⟨1, _⟩ => rfl | ⟨2, _⟩ => rfl | ⟨3, _⟩ => rfl | ⟨4, _⟩ => rfl)

/-- Moving the channel axis first and then last again is the identity. -/
theorem transpose_channel_back (x : S2046x2046x3.Idx → α)
    (h : S2046x2046x3.Transposes [2, 0, 1] S3x2046x2046)
    (h' : S3x2046x2046.Transposes [1, 2, 0] S2046x2046x3) :
    transpose S2046x2046x3 [1, 2, 0] (transpose S3x2046x2046 [2, 0, 1] x h) h' = x := by
  funext j
  refine (transpose_apply _ _ h' j
    (fun a => match a with | ⟨0, _⟩ => j 2 | ⟨1, _⟩ => j 0 | ⟨2, _⟩ => j 1)
    (fun b => match b with | ⟨0, _⟩ => rfl | ⟨1, _⟩ => rfl | ⟨2, _⟩ => rfl)).trans ?_
  exact transpose_apply _ _ h _ j
    (fun b => match b with | ⟨0, _⟩ => rfl | ⟨1, _⟩ => rfl | ⟨2, _⟩ => rfl)

end Layout

/-! ### A fold that overwrites -/

section Fold

variable {ι β : Type} (p : ι → Prop) [DecidablePred p] (g : ι → β)

/-- Where no member of the list meets `p`, the overwriting fold leaves the running value alone. -/
theorem foldl_overwrite_none (l : List ι) (acc : β) (hl : ∀ n ∈ l, ¬ p n) :
    l.foldl (fun a n => if p n then g n else a) acc = acc := by
  induction l generalizing acc with
  | nil => rfl
  | cons n l ih =>
    rw [List.foldl_cons, if_neg (hl n List.mem_cons_self)]
    exact ih acc fun m hm => hl m (List.mem_cons_of_mem n hm)

/-- Where every member meeting `p` carries the same value `v` and some member meets `p`, the overwriting fold ends
    at `v`: the last such member writes it and nothing after changes it. -/
theorem foldl_overwrite_some (v : β) (hv : ∀ n, p n → g n = v) (l : List ι) (acc : β) (hl : ∃ n ∈ l, p n) :
    l.foldl (fun a n => if p n then g n else a) acc = v := by
  induction l generalizing acc with
  | nil => obtain ⟨n, hn, _⟩ := hl; cases hn
  | cons n l ih =>
    rw [List.foldl_cons]
    by_cases hrest : ∃ m ∈ l, p m
    · exact ih _ hrest
    · have hnone : ∀ m ∈ l, ¬ p m := fun m hm hp => hrest ⟨m, hm, hp⟩
      rw [foldl_overwrite_none p g l _ hnone]
      obtain ⟨m, hm, hp⟩ := hl
      rcases List.mem_cons.1 hm with rfl | hm'
      · rw [if_pos hp]; exact hv _ hp
      · exact absurd hp (hnone m hm')

end Fold

/-! ### The scatter that writes everything -/

section Scatter

variable [Facts]
open Facts₀ Facts

/-- No axis is scattered, so every window starts at zero; the three window axes are the operand's three axes in
    order and the window is the whole operand: each update index lands at itself. -/
theorem resultIdx_whole (j : S3x2046x2046.Idx) (idx : IVec S0 32) :
    scatter_S3x2046x2046_S0_S3x2046x2046_012_n_n_0.resultIdx? j idx = some j := by
  have hs : ∀ a, scatter_S3x2046x2046_S0_S3x2046x2046_012_n_n_0.start j idx a = 0 := fun a => rfl
  have hw : ∀ a, scatter_S3x2046x2046_S0_S3x2046x2046_012_n_n_0.window j a = (j a).val := fun a =>
    match a with | ⟨0, _⟩ => rfl | ⟨1, _⟩ => rfl | ⟨2, _⟩ => rfl
  unfold ScatterDims.resultIdx?
  rw [dif_pos (fun a => by rw [hs, hw]; have := (j a).isLt; constructor <;> omega)]
  congr 1
  funext a
  apply Fin.ext
  simp only [hs, hw]
  omega

/-- Read at an index, the whole-operand scatter whose body returns the update is the update there. -/
theorem scatter_whole {α : Type} (x upd : S3x2046x2046.Idx → α) (idx : IVec S0 32) :
    Host.scatter scatter_S3x2046x2046_S0_S3x2046x2046_012_n_n_0 (fun _ b => b) x idx upd = upd := by
  funext i'
  rw [Cert.LibScatter.scatter_apply]
  simp only [resultIdx_whole]
  exact foldl_overwrite_some
    (fun n => some (S3x2046x2046.rowMajor.symm n) = some i') (fun n => upd (S3x2046x2046.rowMajor.symm n)) (upd i')
    (fun n hn => congrArg upd (Option.some.inj hn)) _ _
    ⟨S3x2046x2046.rowMajor i', List.mem_finRange _, by rw [Equiv.symm_apply_apply]⟩

end Scatter

/-! ### The choice, and the whole -/

variable [Facts]
open Facts₀ Facts

/-- With `step` zero at every tile the comparison with zero is one at every tile, broadcast along the rows it is
    one at every pixel, and the choice takes the first rows. -/
theorem select_step_zero (st : IVec S348843 32) (t rm : IVec S348843x36 32) (hst : ∀ k, st k = 0#32) :
    select
      (broadcastInDim S348843x36 ![0, 1] bcast_S348843x1_S348843x36_0_1
        (broadcastInDim S348843x1 ![0] bcast_S348843_S348843x1_0
          (cmpi .eq st (broadcastInDim S348843 ![] bcast_S_S348843 (constantI S_ 32 0#32)))))
      t rm = t := by
  funext i
  show Scalar.select (IntOp.cmpi .eq (st _) 0#32) (t i) (rm i) = t i
  rw [hst]
  rfl

/-- Where `step` is zero everywhere the reference's result is the image. -/
theorem finish_eq (x : IVec S2046x2046x3 32) (st : IVec S348843 32) (rm : IVec S348843x36 32)
    (hst : ∀ k, st k = 0#32) : finish x (tiles x) st rm = x := by
  unfold finish
  rw [select_step_zero st (tiles x) rm hst, scatter_whole]
  unfold tiles
  rw [shapeCast_shapeCast_self, transpose_mid_twice, shapeCast_shapeCast_self]
  unfold img
  exact transpose_channel_back x _ _

end Cert.ReferenceIdeal.Spec
-- ==== Proof.RefValue.lean ====
/-
  On an image of bytes the reference returns the image.

  The tiles of a byte image hold bytes, so every histogram bin holds at most the tile's 36 pixels, the largest
  value of a tile is a byte, and `step = (36 − count) div 255` is zero for every tile: each tile is kept, and
  laying the kept tiles back gives the image.
-/
import proofs.«407464_j39436389711988_3_alg».proof.Proof.RefSpec
import proofs.«407464_j39436389711988_3_alg».proof.Proof.RefHist
import proofs.«407464_j39436389711988_3_alg».proof.Proof.RefStep
import proofs.«407464_j39436389711988_3_alg».proof.Proof.RefFinish

noncomputable section

namespace Cert.ReferenceIdeal.Spec

open Idealize.ShloMosaic Cert.ReferenceIdeal

variable [Facts]

/-- Whatever the remapped rows are, the reference's result on a byte image is the image. -/
theorem out_eq_self (x : IVec S2046x2046x3 32) (hx : Byte x) (rm : IVec S348843x36 32) : out x rm = x := by
  unfold out
  exact finish_eq x _ rm
    (step_zero _ _ (hist_le _ (tiles_byte x hx)) (vmax_byte _ (tiles_byte x hx)))

end Cert.ReferenceIdeal.Spec

end
-- ==== Proof.lean ====
/-
  The kernel copies the image: its host side folds the last two axes, one pallas_call copies the rows block by
  block (the last block cut at the image's end), and the host side unfolds them again. The reference equalizes
  6×6 tiles with 256 bins, and on an image of bytes that is the identity: a tile has 36 pixels, so
  `step = (36 − count of the largest value) div 255` is zero and every tile is kept. Under the precondition
  (every pixel between 0 and 255) both programs therefore return the image.

  The frames are the programs' runs read at the argument array; `preserves` has no entry; the algebraic claim
  joins the kernel's run (result = image) with the reference's (result = the reference's function of the image,
  which is the image on bytes).
-/
import proofs.«407464_j39436389711988_3_alg».proof.Defs
import proofs.«407464_j39436389711988_3_alg».proof.Proof.Gen.Kernel
import proofs.«407464_j39436389711988_3_alg».proof.Proof.Gen.KernelIdeal
import proofs.«407464_j39436389711988_3_alg».proof.Proof.Gen.ReferenceIdeal
import proofs.«407464_j39436389711988_3_alg».proof.Proof.Gen.Pre_any_inputs
import proofs.«407464_j39436389711988_3_alg».proof.Proof.KernelValue
import proofs.«407464_j39436389711988_3_alg».proof.Proof.KernelIdealValue
import proofs.«407464_j39436389711988_3_alg».proof.Proof.RefRun
import proofs.«407464_j39436389711988_3_alg».proof.Proof.RefPre
import proofs.«407464_j39436389711988_3_alg».proof.Proof.RefValue
import Idealize.ShloMosaic.Adequacy
import Idealize.ShloMosaic.Init

noncomputable section

namespace Cert.Proof

open Idealize.ShloMosaic Idealize.SL.Sem

/-- The word-level kernel runs and leaves the image as it was. -/
theorem frame_k : Cert.frame_Kernel := fun m ρ _ =>
  (θ_run Cert.Kernel.defs _ _).mono (fun _ h c => (h c).2) (Cert.Kernel.Hand.run (F := Bits) m ρ)

/-- So does its idealization. -/
theorem frame_ki : Cert.frame_KernelIdeal := fun m ρ _ =>
  (θ_run Cert.KernelIdeal.defs _ _).mono (fun _ h c => (h c).2) (Cert.KernelIdeal.Hand.run (F := Ideal) m ρ)

/-- And the reference. -/
theorem frame_ri : Cert.frame_ReferenceIdeal := fun m ρ _ =>
  (θ_run Cert.ReferenceIdeal.defs _ _).mono (fun _ h c => (h c).2) (Cert.ReferenceIdeal.Hand.run (F := Ideal) m ρ)

/-- Both end at the image: the kernel because it copies, the reference because every tile of a byte image is kept. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    Cert.KernelIdeal.Hand.run (F := Ideal) m ρ, ?_⟩
  refine (θ_run Cert.ReferenceIdeal.defs _ _).mono (fun r h c => ⟨?_, (h c).2⟩)
    (Cert.ReferenceIdeal.Hand.run (F := Ideal) m' ρ')
  obtain ⟨rm, hr⟩ := (h c).1
  rw [hr, hagree c]
  exact Cert.ReferenceIdeal.Spec.out_eq_self _ (Cert.ReferenceIdeal.Spec.byte_of_pre (F := Ideal) _ (hpre c)) rm

theorem claim : Cert.Claim := ⟨Cert.Kernel.Gen.facts, Cert.KernelIdeal.Gen.facts, Cert.ReferenceIdeal.Gen.facts,
  Cert.Pre_any_inputs.Gen.facts, frame_k, frame_ki, frame_ri, trivial, algebraic⟩

end Cert.Proof

end
